-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x64 : Shape := ⟨2, ![1000, 64]⟩
abbrev S64x64 : Shape := ⟨2, ![64, 64]⟩
abbrev S64 : Shape := ⟨1, ![64]⟩
abbrev S100000 : Shape := ⟨1, ![100000]⟩
abbrev S1600000 : Shape := ⟨1, ![1600000]⟩
abbrev S_ : Shape := ⟨0, ![]⟩

class Facts : Prop where
  bcast_S_S1000x64 : S_.BroadcastsInDim S1000x64 (![] : Fin 0 → Fin S1000x64.rank)
  reducesTo_S1000x64_S_d0_1 : S1000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg7 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg7 main_v34
  let main_c_13 : IVec S_ 32 := constantI S_ 32 1000#32
  let main_v36 : IVec S100000 32 := broadcastInDim S100000 ![] bcast_S_S100000 main_c_13
  let main_v37 : IVec S100000 1 := cmpi .slt main_arg7 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  main_v40

def fn_part1 {F : FTy → Type} [FloatOps F] (main_arg4 : FVec F S64 .f32) (main_arg5 : FVec F S64x64 .f32) (main_arg6 : FVec F S64 .f32) (main_arg7 : IVec S100000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S1000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : IVec S100000 32) (main_arg8 : IVec S1600000 32) (main_arg9 : IVec S1600000 32) (main_arg10 : IVec S100000 32) : IVec S_ 1 :=
  let main_v0 : FVec F S1000x64 .f32 := Host.absf main_arg0
  let main_cst : FVec F S_ .f32 := constant S_ .f32 0x7F800000#32
  let main_v1 : FVec F S1000x64 .f32 := broadcastInDim S1000x64 ![] bcast_S_S1000x64 main_cst
  let main_v2 : IVec S1000x64 1 := cmpf .olt main_v0 main_v1
  let main_c : IVec S_ 1 := constantI S_ 1 1#1
  let main_v3 : IVec S_ 1 := (fun x v => Host.reduce IntOp.andi x v reducesTo_S1000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_v13 main_v16
-- ==== Kernel.lean ====
abbrev S1000x64 : Shape := ⟨2, ![1000, 64]⟩
abbrev S64x64 : Shape := ⟨2, ![64, 64]⟩
abbrev S64 : Shape := ⟨1, ![64]⟩
abbrev S100000 : Shape := ⟨1, ![100000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S2000x1 : Shape := ⟨2, ![2000, 1]⟩
abbrev S2000x64 : Shape := ⟨2, ![2000, 64]⟩
abbrev S2000x1000 : Shape := ⟨2, ![2000, 1000]⟩
abbrev S1600000x64 : Shape := ⟨2, ![1600000, 64]⟩
abbrev S1x64 : Shape := ⟨2, ![1, 64]⟩
abbrev S10000x64 : Shape := ⟨2, ![10000, 64]⟩
abbrev S10000x1 : Shape := ⟨2, ![10000, 1]⟩
abbrev S64x1 : Shape := ⟨2, ![64, 1]⟩

abbrev nBuf : Space → Nat
  | .hbm => 109
  | .vmem => 34
  | .smem => 0
  | _ => 0

abbrev bufTy : (tb : Table) → Fin (tcTables nBuf tb) → BufTy
  | .hbm, ⟨0, _⟩ => ⟨S1000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1600000, .i32⟩
  | .hbm, ⟨9, _⟩ => ⟨S1600000, .i32⟩
  | .hbm, ⟨10, _⟩ => ⟨S100000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x1, .f32⟩
  | .hbm, ⟨54, _⟩ => ⟨S1x64, .f32⟩
  | .hbm, ⟨55, _⟩ => ⟨S100000x64, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S100000x1, .f32⟩
  | .hbm, ⟨73, _⟩ => ⟨S1x64, .f32⟩
  | .hbm, ⟨74, _⟩ => ⟨S100000x64, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S100000x1, .f32⟩
  | .hbm, ⟨92, _⟩ => ⟨S1x64, .f32⟩
  | .hbm, ⟨93, _⟩ => ⟨S100000x64, .f32⟩
  | .hbm, ⟨94, _⟩ => ⟨S100000x1, .i32⟩
  | .hbm, ⟨95, _⟩ => ⟨S64x64, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S64, .f32⟩
  | .hbm, ⟨100, _⟩ => ⟨S100000x1, .i32⟩
  | .hbm, ⟨101, _⟩ => ⟨S64, .f32⟩
  | .hbm, ⟨102, _⟩ => ⟨S_, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x64, .f32⟩
  | .hbm, ⟨108, _⟩ => ⟨S64x64, .f32⟩
  | .local _ .vmem, ⟨0, _⟩ => ⟨S2000x1, .i32⟩
  | .local _ .vmem, ⟨1, _⟩ => ⟨S2000x1, .i32⟩
  | .local _ .vmem, ⟨2, _⟩ => ⟨S1000x64, .f32⟩
  | .local _ .vmem, ⟨3, _⟩ => ⟨S2000x64, .f32⟩
  | .local _ .vmem, ⟨4, _⟩ => ⟨S2000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S64x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S64x64, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S64x64, .f32⟩
  | .local _ .vmem, ⟨26, _⟩ => ⟨S1x64, .f32⟩
  | .local _ .vmem, ⟨27, _⟩ => ⟨S10000x64, .f32⟩
  | .local _ .vmem, ⟨28, _⟩ => ⟨S10000x64, .f32⟩
  | .local _ .vmem, ⟨29, _⟩ => ⟨S2000x1, .i32⟩
  | .local _ .vmem, ⟨30, _⟩ => ⟨S2000x1, .i32⟩
  | .local _ .vmem, ⟨31, _⟩ => ⟨S2000x64, .f32⟩
  | .local _ .vmem, ⟨32, _⟩ => ⟨S2000x64, .f32⟩
  | .local _ .vmem, ⟨33, _⟩ => ⟨S64x64, .f32⟩
  | _, _ => ⟨S1000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_11 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_cst_15 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_call2_v0 : Ref sig .tc := ⟨.hbm, 103, rfl⟩
abbrev main_call2_v1 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1000_d1_w32 : S2000x1000.Iotas .tc 32 [1]
  broadcasts_S2000x1_S2000x1000 : S2000x1.Broadcasts S2000x1000
  natLt_1_32 : 1 < 32
  bitsLt_bf16_f32 : FTy.bits .bf16 < FTy.bits .f32
  inb_S1000x64_S1000x64_0_0 : ∀ a, (![0, 0] : Fin 2 → Nat) a + S1000x64.size a ≤ S1000x64.size a
  h_S1000x64 : 0 < S1000x64.numel
  inb_S2000x64_S2000x64_0_0 : ∀ a, (![0, 0] : Fin 2 → Nat) a + S2000x64.size a ≤ S2000x64.size a
  h_S2000x64 : 0 < S2000x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  iota_S2000x64_d1_w32 : S2000x64.Iotas .tc 32 [1]
  broadcasts_S2000x1_S2000x64 : S2000x1.Broadcasts S2000x64
  shapeCasts_S2000x64_S2000x64 : S2000x64.ShapeCasts S2000x64
  shapeCasts_S64x64_S64x64 : S64x64.ShapeCasts S64x64
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  dot_S2000x1000_S1000x64_S2000x64_1_0_0_1_n_n_wf : DotDims.WF S2000x1000 S1000x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S2000x64_S2000x64_S64x64_0_0_1_1_n_n_wf : DotDims.WF S2000x64 S2000x64 S64x64 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .i32 = 32 ∨ (Rect.block (s := S100000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S1000x64.size a
  hwx0_1 : ∀ i : grid0.Coords, EltTy.bits .f32 = 32 ∨ (Rect.block (s := S1000x64) S1000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S100000x1.size a
  hwx4_0 : ∀ i : grid4.Coords, EltTy.bits .i32 = 32 ∨ (Rect.block (s := S100000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x1000_S1000x64_S2000x64_1_0_0_1_n_n : DotDims S2000x1000 S1000x64 S2000x64 where
  lhsContracting := [1]
  rhsContracting := [0]
  lhsNonContracting := [0]
  rhsNonContracting := [1]
  lhsBatch := []
  rhsBatch := []
  wf := dot_S2000x1000_S1000x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S2000x64_S2000x64_S64x64_0_0_1_1_n_n : DotDims S2000x64 S2000x64 S64x64 where
  lhsContracting := [0]
  rhsContracting := [0]
  lhsNonContracting := [1]
  rhsNonContracting := [1]
  lhsBatch := []
  rhsBatch := []
  wf := dot_S2000x64_S2000x64_S64x64_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v13) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v63) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S64x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S1000x64 : Shape := ⟨2, ![1000, 64]⟩
abbrev S64x64 : Shape := ⟨2, ![64, 64]⟩
abbrev S64 : Shape := ⟨1, ![64]⟩
abbrev S100000 : Shape := ⟨1, ![100000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S64x1 : Shape := ⟨2, ![64, 1]⟩

abbrev nBuf : Space → Nat
  | .hbm => 139
  | .vmem => 0
  | .smem => 0
  | _ => 0

abbrev hbmTy0_0 (i : Nat) : BufTy := match i % 128 with
  | 0 => ⟨S1000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S100000, .i32⟩
  | 8 => ⟨S1600000, .i32⟩
  | 9 => ⟨S1600000, .i32⟩
  | 10 => ⟨S100000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S_, .f32⟩
  | 19 => ⟨S100000, .f32⟩
  | 20 => ⟨S100000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000x64, .f32⟩
  | 44 => ⟨S100000x1, .f32⟩
  | 45 => ⟨S100000x64, .f32⟩
  | 46 => ⟨S100000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x1, .f32⟩
  | 71 => ⟨S100000x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S100000x1, .f32⟩
  | 87 => ⟨S100000x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x1, .f32⟩
  | 97 => ⟨S100000x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x1, .f32⟩
  | 113 => ⟨S100000x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S64x64, .f32⟩
  | 124 => ⟨S100000x1, .i32⟩
  | 125 => ⟨S64x64, .f32⟩
  | 126 => ⟨S_, .f32⟩
  | 127 => ⟨S100000, .f32⟩
  | _ => ⟨S1000x64, .f32⟩

abbrev hbmTy0_1 (i : Nat) : BufTy := match i % 128 with
  | 0 => ⟨S_, .f32⟩
  | 1 => ⟨S64, .f32⟩
  | 2 => ⟨S100000x1, .i32⟩
  | 3 => ⟨S64, .f32⟩
  | 4 => ⟨S_, .f32⟩
  | 5 => ⟨S_, .f32⟩
  | 6 => ⟨S64, .f32⟩
  | 7 => ⟨S64, .f32⟩
  | 8 => ⟨S64x1, .f32⟩
  | 9 => ⟨S64x64, .f32⟩
  | 10 => ⟨S64x64, .f32⟩
  | _ => ⟨S1000x64, .f32⟩

abbrev hbmTy (i : Nat) : BufTy := match i / 128 with
  | 0 => hbmTy0_0 i
  | 1 => hbmTy0_1 i
  | _ => ⟨S1000x64, .f32⟩

abbrev bufTy : (tb : Table) → Fin (tcTables nBuf tb) → BufTy
  | .hbm, ⟨i, _⟩ => hbmTy i
  | _, _ => ⟨S1000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_7 : Ref sig .tc := ⟨.hbm, 47, rfl⟩
abbrev main_v23 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call2_cst : Ref sig .tc := ⟨.hbm, 67, rfl⟩
abbrev main_call2_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call3_cst : Ref sig .tc := ⟨.hbm, 93, rfl⟩
abbrev main_call3_v0 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_13 : Ref sig .tc := ⟨.hbm, 99, rfl⟩
abbrev main_v65 : Ref sig .tc := ⟨.hbm, 100, rfl⟩
abbrev main_v66 : Ref sig .tc := ⟨.hbm, 101, rfl⟩
abbrev main_c_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_call4_cst : Ref sig .tc := ⟨.hbm, 119, rfl⟩
abbrev main_call4_v0 : Ref sig .tc := ⟨.hbm, 120, rfl⟩
abbrev main_v82 : Ref sig .tc := ⟨.hbm, 121, rfl⟩
abbrev main_cst_16 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_17 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_19 : Ref sig .tc := ⟨.hbm, 132, rfl⟩
abbrev main_call5_v0 : Ref sig .tc := ⟨.hbm, 133, rfl⟩
abbrev main_call5_v1 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  gather_S1000x64_S100000x1_S100000x64_1_0_n_n_0_1_164_wf : GatherDims.WF S1000x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.HostK.lean ====
/-
  The host side of the kernel's program at the ideal instance: what each stretch of host operations computes from the
  buffer contents it finds, named as a few functions of arrays — the inverse square root of the clamped degree
  (`normK`), one round of message passing (`aggK`: scale the rows by the senders' normalisation, gather the rows at the
  edges' sources, add them up at the edges' targets) and the clamped node count per graph, broadcast along the rows (`cntK`).
-/
import proofs.«400514_j35381940584594_2_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

/-- `max(1, number of edges with this end at the node) ^ (-1/2)`, node by node. -/
def normK (idx : IVec S1600000 32) : FVec Ideal S100000 .f32 :=
  Host.powf
    (maximumf (broadcastInDim S100000 ![] bcast_S_S100000 (id (constant (F := Ideal) S_ .f32 0x3F800000#32)))
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))
    (broadcastInDim S100000 ![] bcast_S_S100000 (constant (F := Ideal) S_ .f32 0xBF000000#32))

/-- One round of message passing: rows scaled by the senders' normalisation, gathered at the sources, summed at the targets. -/
def aggK (h : FVec Ideal S100000x64 .f32) (nOut : FVec Ideal S100000 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164
      (mulf h (broadcastInDim S100000x64 ![0, 1] bcast_S100000x1_S100000x64_0_1 (broadcastInDim S100000x1 ![0] bcast_S100000_S100000x1_0 nOut)))
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- `max(1, number of nodes of the graph)`, broadcast along the rows of the [64, 64] result. -/
def cntK (gid : IVec S100000 32) : FVec Ideal S64x64 .f32 :=
  broadcastInDim S64x64 ![0, 1] bcast_S64x1_S64x64_0_1 (broadcastInDim S64x1 ![0] bcast_S64_S64x1_0
    (maximumf (broadcastInDim S64 ![] bcast_S_S64 (id (constant (F := Ideal) S_ .f32 0x3F800000#32)))
      (Host.scatterAdd scatter_S64_S100000x1_S100000_n_0_0_1
        (broadcastInDim S64 ![] bcast_S_S64 (constant (F := Ideal) S_ .f32 0x00000000#32))
        (broadcastInDim S100000x1 ![0] bcast_S100000_S100000x1_0 gid)
        (broadcastInDim S100000 ![] bcast_S_S100000 (constant (F := Ideal) S_ .f32 0x3F800000#32)))))

variable (W : Valuation τ sig (Elt Ideal))

/-! ## The stretch between the first and the second region (and its two siblings) -/

set_option maxHeartbeats 4000000 in
theorem s1_v27 : StableHlo.after (hostOps1 (F := Ideal)) W (Proc.devRef .tc main_v27)
    = aggK (W (Proc.devRef .tc main_v14)) (W (Proc.devRef .tc main_v10)) (W (Proc.devRef .tc main_arg8)) (W (Proc.devRef .tc main_arg9)) := by
  unfold hostOps1
  after_results_simp
  rfl

set_option maxHeartbeats 4000000 in
theorem s1_v28 : StableHlo.after (hostOps1 (F := Ideal)) W (Proc.devRef .tc main_v28)
    = (shapeCast S100000x1 (W (Proc.devRef .tc main_v12)) shapeCasts_S100000_S100000x1 : FVec Ideal S100000x1 .f32) := by
  unfold hostOps1
  after_results_simp
  rfl

set_option maxHeartbeats 4000000 in
theorem s1_v29 : StableHlo.after (hostOps1 (F := Ideal)) W (Proc.devRef .tc main_v29)
    = (shapeCast S1x64 (W (Proc.devRef .tc main_arg2)) shapeCasts_S64_S1x64 : FVec Ideal S1x64 .f32) := by
  unfold hostOps1
  after_results_simp
  rfl

set_option maxHeartbeats 4000000 in
theorem s2_v43 : StableHlo.after (hostOps2 (F := Ideal)) W (Proc.devRef .tc main_v43)
    = aggK (W (Proc.devRef .tc main_v30)) (W (Proc.devRef .tc main_v10)) (W (Proc.devRef .tc main_arg8)) (W (Proc.devRef .tc main_arg9)) := by
  unfold hostOps2
  after_results_simp
  rfl

set_option maxHeartbeats 4000000 in
theorem s2_v44 : StableHlo.after (hostOps2 (F := Ideal)) W (Proc.devRef .tc main_v44)
    = (shapeCast S100000x1 (W (Proc.devRef .tc main_v12)) shapeCasts_S100000_S100000x1 : FVec Ideal S100000x1 .f32) := by
  unfold hostOps2
  after_results_simp
  rfl

set_option maxHeartbeats 4000000 in
theorem s2_v45 : StableHlo.after (hostOps2 (F := Ideal)) W (Proc.devRef .tc main_v45)
    = (shapeCast S1x64 (W (Proc.devRef .tc main_arg4)) shapeCasts_S64_S1x64 : FVec Ideal S1x64 .f32) := by
  unfold hostOps2
  after_results_simp
  rfl

set_option maxHeartbeats 4000000 in
theorem s3_v59 : StableHlo.after (hostOps3 (F := Ideal)) W (Proc.devRef .tc main_v59)
    = aggK (W (Proc.devRef .tc main_v46)) (W (Proc.devRef .tc main_v10)) (W (Proc.devRef .tc main_arg8)) (W (Proc.devRef .tc main_arg9)) := by
  unfold hostOps3
  after_results_simp
  rfl

set_option maxHeartbeats 4000000 in
theorem s3_v60 : StableHlo.after (hostOps3 (F := Ideal)) W (Proc.devRef .tc main_v60)
    = (shapeCast S100000x1 (W (Proc.devRef .tc main_v12)) shapeCasts_S100000_S100000x1 : FVec Ideal S100000x1 .f32) := by
  unfold hostOps3
  after_results_simp
  rfl

set_option maxHeartbeats 4000000 in
theorem s3_v61 : StableHlo.after (hostOps3 (F := Ideal)) W (Proc.devRef .tc main_v61)
    = (shapeCast S1x64 (W (Proc.devRef .tc main_arg6)) shapeCasts_S64_S1x64 : FVec Ideal S1x64 .f32) := by
  unfold hostOps3
  after_results_simp
  rfl

/-! ## The stretch before the last region -/

theorem s4_v63 : StableHlo.after (hostOps4 (F := Ideal)) W (Proc.devRef .tc main_v63)
    = (shapeCast S100000x1 (W (Proc.devRef .tc main_arg10)) shapeCasts_S100000_S100000x1 : IVec S100000x1 32) := by
  unfold hostOps4
  after_results_simp
  rfl

theorem s4_v62 : StableHlo.after (hostOps4 (F := Ideal)) W (Proc.devRef .tc main_v62) = W (Proc.devRef .tc main_v62) := by
  unfold hostOps4
  after_results_simp

end Cert.KernelIdeal.Hand

end
-- ==== Proof.HostPre.lean ====
/-
  The host operations before the first region at the ideal instance, stretch by stretch: the edge counts at the sources
  and at the targets, each clamped below at one and raised to the power -1/2, the node-type column, and the argument arrays
  left as launched.
-/
import proofs.«400514_j35381940584594_2_alg».proof.Proof.HostK
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (W : Valuation τ sig (Elt Ideal))

/-- No operation of a stretch writes the buffer: the stretch leaves it as it was (the operations' written buffers are
    compared with it one by one). -/
macro "not_written_pre" ops:ident : tactic =>
  `(tactic| (refine StableHlo.after_of_forall_not_mem (b := Proc.devRef .tc _) _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## What each stretch computes -/

set_option maxHeartbeats 4000000 in
theorem p0_v3 : StableHlo.after (hostOps0 (F := Ideal)) W (Proc.devRef .tc main_v3) = (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (W (Proc.devRef .tc main_arg8)))
        (broadcastInDim S1600000 ![] bcast_S_S1600000 (constant (F := Ideal) S_ .f32 0x3F800000#32)) : FVec Ideal S100000 .f32) := by
  unfold hostOps0
  after_results_simp <;> rfl

set_option maxHeartbeats 4000000 in
theorem p0_v0 : StableHlo.after (hostOps0 (F := Ideal)) W (Proc.devRef .tc main_v0) = (broadcastInDim S1600000 ![] bcast_S_S1600000 (constant (F := Ideal) S_ .f32 0x3F800000#32) : FVec Ideal S1600000 .f32) := by
  unfold hostOps0
  after_results_simp <;> rfl

set_option maxHeartbeats 4000000 in
theorem p0_cst1 : StableHlo.after (hostOps0 (F := Ideal)) W (Proc.devRef .tc main_cst_1) = ((constant (F := Ideal) S_ .f32 0x3F800000#32) : FVec Ideal S_ .f32) := by
  unfold hostOps0
  after_results_simp <;> rfl

set_option maxHeartbeats 4000000 in
theorem p1_v4 : StableHlo.after (hostOps0_1 (F := Ideal)) W (Proc.devRef .tc main_v4) = (maximumf (broadcastInDim S100000 ![] bcast_S_S100000 (id (W (Proc.devRef .tc main_cst_1) : FVec Ideal S_ .f32))) (W (Proc.devRef .tc main_v3)) : FVec Ideal S100000 .f32) := by
  unfold hostOps0_1
  after_results_simp <;> rfl

set_option maxHeartbeats 4000000 in
theorem p2_v7 : StableHlo.after (hostOps0_2 (F := Ideal)) W (Proc.devRef .tc main_v7) = (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (W (Proc.devRef .tc main_arg9)))
        (W (Proc.devRef .tc main_v0)) : FVec Ideal S100000 .f32) := by
  unfold hostOps0_2
  after_results_simp <;> rfl

set_option maxHeartbeats 4000000 in
theorem p2_cst3 : StableHlo.after (hostOps0_2 (F := Ideal)) W (Proc.devRef .tc main_cst_3) = ((constant (F := Ideal) S_ .f32 0x3F800000#32) : FVec Ideal S_ .f32) := by
  unfold hostOps0_2
  after_results_simp <;> rfl

set_option maxHeartbeats 4000000 in
theorem p3_v8 : StableHlo.after (hostOps0_3 (F := Ideal)) W (Proc.devRef .tc main_v8) = (maximumf (broadcastInDim S100000 ![] bcast_S_S100000 (id (W (Proc.devRef .tc main_cst_3) : FVec Ideal S_ .f32))) (W (Proc.devRef .tc main_v7)) : FVec Ideal S100000 .f32) := by
  unfold hostOps0_3
  after_results_simp <;> rfl

set_option maxHeartbeats 4000000 in
theorem p4_v10 : StableHlo.after (hostOps0_4 (F := Ideal)) W (Proc.devRef .tc main_v10) = (Host.powf (W (Proc.devRef .tc main_v4)) (broadcastInDim S100000 ![] bcast_S_S100000 (constant (F := Ideal) S_ .f32 0xBF000000#32)) : FVec Ideal S100000 .f32) := by
  unfold hostOps0_4
  after_results_simp <;> rfl

set_option maxHeartbeats 4000000 in
theorem p4_v12 : StableHlo.after (hostOps0_4 (F := Ideal)) W (Proc.devRef .tc main_v12) = (Host.powf (W (Proc.devRef .tc main_v8)) (broadcastInDim S100000 ![] bcast_S_S100000 (constant (F := Ideal) S_ .f32 0xBF000000#32)) : FVec Ideal S100000 .f32) := by
  unfold hostOps0_4
  after_results_simp <;> rfl

set_option maxHeartbeats 4000000 in
theorem p4_v13 : StableHlo.after (hostOps0_4 (F := Ideal)) W (Proc.devRef .tc main_v13) = (shapeCast S100000x1 (W (Proc.devRef .tc main_arg7)) shapeCasts_S100000_S100000x1 : IVec S100000x1 32) := by
  unfold hostOps0_4
  after_results_simp <;> rfl

/-! ## What the stretches in between leave alone -/

theorem p1_v0 : StableHlo.after (hostOps0_1 (F := Ideal)) W (Proc.devRef .tc main_v0) = W (Proc.devRef .tc main_v0) := by
  not_written_pre hostOps0_1

theorem p2_v4 : StableHlo.after (hostOps0_2 (F := Ideal)) W (Proc.devRef .tc main_v4) = W (Proc.devRef .tc main_v4) := by
  not_written_pre hostOps0_2

theorem p3_v4 : StableHlo.after (hostOps0_3 (F := Ideal)) W (Proc.devRef .tc main_v4) = W (Proc.devRef .tc main_v4) := by
  not_written_pre hostOps0_3

/-- The argument arrays. -/
def args : List (Ref sig .tc) :=
  [main_arg0, main_arg1, main_arg2, main_arg3, main_arg4, main_arg5, main_arg6, main_arg7, main_arg8, main_arg9, main_arg10]

set_option maxHeartbeats 4000000 in
/-- No operation of this stretch writes an argument array. -/
theorem p0_arg (r : Ref sig .tc) (hr : r ∈ args) : StableHlo.after (hostOps0 (F := Ideal)) W (Proc.devRef .tc r) = W (Proc.devRef .tc r) := by
  simp only [args, List.mem_cons, List.not_mem_nil, or_false] at hr
  rcases hr with rfl | rfl | rfl | rfl | rfl | rfl | rfl | rfl | rfl | rfl | rfl <;> not_written_pre hostOps0

set_option maxHeartbeats 4000000 in
/-- No operation of this stretch writes an argument array. -/
theorem p1_arg (r : Ref sig .tc) (hr : r ∈ args) : StableHlo.after (hostOps0_1 (F := Ideal)) W (Proc.devRef .tc r) = W (Proc.devRef .tc r) := by
  simp only [args, List.mem_cons, List.not_mem_nil, or_false] at hr
  rcases hr with rfl | rfl | rfl | rfl | rfl | rfl | rfl | rfl | rfl | rfl | rfl <;> not_written_pre hostOps0_1

set_option maxHeartbeats 4000000 in
/-- No operation of this stretch writes an argument array. -/
theorem p2_arg (r : Ref sig .tc) (hr : r ∈ args) : StableHlo.after (hostOps0_2 (F := Ideal)) W (Proc.devRef .tc r) = W (Proc.devRef .tc r) := by
  simp only [args, List.mem_cons, List.not_mem_nil, or_false] at hr
  rcases hr with rfl | rfl | rfl | rfl | rfl | rfl | rfl | rfl | rfl | rfl | rfl <;> not_written_pre hostOps0_2

set_option maxHeartbeats 4000000 in
/-- No operation of this stretch writes an argument array. -/
theorem p3_arg (r : Ref sig .tc) (hr : r ∈ args) : StableHlo.after (hostOps0_3 (F := Ideal)) W (Proc.devRef .tc r) = W (Proc.devRef .tc r) := by
  simp only [args, List.mem_cons, List.not_mem_nil, or_false] at hr
  rcases hr with rfl | rfl | rfl | rfl | rfl | rfl | rfl | rfl | rfl | rfl | rfl <;> not_written_pre hostOps0_3

set_option maxHeartbeats 4000000 in
/-- No operation of this stretch writes an argument array. -/
theorem p4_arg (r : Ref sig .tc) (hr : r ∈ args) : StableHlo.after (hostOps0_4 (F := Ideal)) W (Proc.devRef .tc r) = W (Proc.devRef .tc r) := by
  simp only [args, List.mem_cons, List.not_mem_nil, or_false] at hr
  rcases hr with rfl | rfl | rfl | rfl | rfl | rfl | rfl | rfl | rfl | rfl | rfl <;> not_written_pre hostOps0_4

/-! ## The five stretches together -/

/-- The contents after the five stretches that precede the first region. -/
abbrev pre (W : Valuation τ sig (Elt Ideal)) : Valuation τ sig (Elt Ideal) :=
  StableHlo.after hostOps0_4 (StableHlo.after hostOps0_3 (StableHlo.after hostOps0_2 (StableHlo.after hostOps0_1 (StableHlo.after hostOps0 W))))

theorem pre_arg (r : Ref sig .tc) (hr : r ∈ args) : pre W (Proc.devRef .tc r) = W (Proc.devRef .tc r) :=
  (p4_arg _ r hr).trans ((p3_arg _ r hr).trans ((p2_arg _ r hr).trans ((p1_arg _ r hr).trans (p0_arg W r hr))))

theorem pre_v13 : pre W (Proc.devRef .tc main_v13)
    = (shapeCast S100000x1 (W (Proc.devRef .tc main_arg7)) shapeCasts_S100000_S100000x1 : IVec S100000x1 32) := by
  refine (p4_v13 _).trans ?_
  rw [p3_arg _ main_arg7 (by decide), p2_arg _ main_arg7 (by decide), p1_arg _ main_arg7 (by decide), p0_arg W main_arg7 (by decide)]

theorem pre_v10 : pre W (Proc.devRef .tc main_v10) = normK (W (Proc.devRef .tc main_arg8)) := by
  refine (p4_v10 _).trans ?_
  rw [p3_v4, p2_v4, p1_v4, p0_cst1, p0_v3]
  rfl

theorem pre_v12 : pre W (Proc.devRef .tc main_v12) = normK (W (Proc.devRef .tc main_arg9)) := by
  refine (p4_v12 _).trans ?_
  rw [p3_v8, p2_cst3, p2_v7, p1_v0, p0_v0, p1_arg _ main_arg9 (by decide), p0_arg W main_arg9 (by decide)]
  rfl

end Cert.KernelIdeal.Hand

end
-- ==== Proof.HostPost.lean ====
/-
  The host operations after the last region at the ideal instance: the per-graph sums divided by the clamped node counts.
-/
import proofs.«400514_j35381940584594_2_alg».proof.Proof.HostK
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (W : Valuation τ sig (Elt Ideal))

/-! ## The stretches after the last region: the division by the clamped counts -/

/-- The contents after the three stretches that follow the last region. -/
abbrev post (W : Valuation τ sig (Elt Ideal)) : Valuation τ sig (Elt Ideal) :=
  StableHlo.after hostOps5_2 (StableHlo.after hostOps5_1 (StableHlo.after hostOps5 W))

set_option maxHeartbeats 8000000 in
theorem post_v72 : post W (Proc.devRef .tc main_v72)
    = Host.divf (W (Proc.devRef .tc main_v64)) (cntK (W (Proc.devRef .tc main_arg10))) := by
  unfold post hostOps5 hostOps5_1 hostOps5_2
  after_results_simp
  rfl

end Cert.KernelIdeal.Hand

end
-- ==== Proof.HostKeep.lean ====
/-
  The buffers that stay as they are from the first region's entry on: no later host operation writes them.
-/
import proofs.«400514_j35381940584594_2_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (W : Valuation τ sig (Elt Ideal))

/-- No operation of a stretch writes the buffer: the stretch leaves it as it was (the operations' written buffers are
    compared with it one by one). -/
macro "not_written" ops:ident : tactic =>
  `(tactic| (refine StableHlo.after_of_forall_not_mem (b := Proc.devRef .tc _) _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- The buffers the later stretches and regions read and none of them writes: the arguments but the table and the
    node types, and the two normalisations. -/
def live : List (Ref sig .tc) :=
  [main_arg1, main_arg2, main_arg3, main_arg4, main_arg5, main_arg6, main_arg8, main_arg9, main_arg10, main_v10, main_v12]

set_option maxHeartbeats 4000000 in
/-- No operation of this stretch writes a buffer of `live`. -/
theorem s1_keep (r : Ref sig .tc) (hr : r ∈ live) : StableHlo.after (hostOps1 (F := Ideal)) W (Proc.devRef .tc r) = W (Proc.devRef .tc r) := by
  simp only [live, List.mem_cons, List.not_mem_nil, or_false] at hr
  rcases hr with rfl | rfl | rfl | rfl | rfl | rfl | rfl | rfl | rfl | rfl | rfl <;> not_written hostOps1

set_option maxHeartbeats 4000000 in
/-- No operation of this stretch writes a buffer of `live`. -/
theorem s2_keep (r : Ref sig .tc) (hr : r ∈ live) : StableHlo.after (hostOps2 (F := Ideal)) W (Proc.devRef .tc r) = W (Proc.devRef .tc r) := by
  simp only [live, List.mem_cons, List.not_mem_nil, or_false] at hr
  rcases hr with rfl | rfl | rfl | rfl | rfl | rfl | rfl | rfl | rfl | rfl | rfl <;> not_written hostOps2

set_option maxHeartbeats 4000000 in
/-- No operation of this stretch writes a buffer of `live`. -/
theorem s3_keep (r : Ref sig .tc) (hr : r ∈ live) : StableHlo.after (hostOps3 (F := Ideal)) W (Proc.devRef .tc r) = W (Proc.devRef .tc r) := by
  simp only [live, List.mem_cons, List.not_mem_nil, or_false] at hr
  rcases hr with rfl | rfl | rfl | rfl | rfl | rfl | rfl | rfl | rfl | rfl | rfl <;> not_written hostOps3

set_option maxHeartbeats 4000000 in
/-- No operation of this stretch writes a buffer of `live`. -/
theorem s4_keep (r : Ref sig .tc) (hr : r ∈ live) : StableHlo.after (hostOps4 (F := Ideal)) W (Proc.devRef .tc r) = W (Proc.devRef .tc r) := by
  simp only [live, List.mem_cons, List.not_mem_nil, or_false] at hr
  rcases hr with rfl | rfl | rfl | rfl | rfl | rfl | rfl | rfl | rfl | rfl | rfl <;> not_written hostOps4

end Cert.KernelIdeal.Hand

end
-- ==== Proof.Spec.lean ====
/-
  The three whole-array functions the kernel's regions compute at the ideal instance, index by index, over literal shapes.
  * `embG`: row `n` of the result is the sum over the table's rows `k` of (1 if the node's type word equals `k`, else 0)
    times row `k` of the table: a one-hot product.
  * `gcnG`: entry `(n, j)` is `max (∑ k, (agg n k * nrm n) * w k j + b j) 0`: scale each row by the node's
    normalisation, multiply by the weight matrix, add the bias, clamp below at zero.
  * `poolG`: entry `(g, j)` is the sum over all nodes `n` of (1 if the node's graph word equals `g`, else 0) times
    `h n j`: a one-hot contraction over the node axis.
-/
import Idealize.ShloMosaic.PureOps.Ideal
import Idealize.ShloMosaic.Lib.ValueIdx

noncomputable section

namespace Cert.Spec

open Idealize.ShloMosaic Idealize.ShloMosaic.ValueIdx
open scoped BigOperators

abbrev T100000x1 : Shape := ⟨2, ![100000, 1]⟩
abbrev T100000x64 : Shape := ⟨2, ![100000, 64]⟩
abbrev T1000x64 : Shape := ⟨2, ![1000, 64]⟩
abbrev T64x64 : Shape := ⟨2, ![64, 64]⟩
abbrev T1x64 : Shape := ⟨2, ![1, 64]⟩

/-- The indicator, as an extended real, that the 32-bit word `w` is the number `k`. -/
def hot (w : BitVec 32) (k : Nat) : EReal := if BitVec.ofNat 32 k = w then 1 else 0

/-- The one-hot embedding product. -/
def embG (nf : T100000x1.Idx → BitVec 32) (emb : T1000x64.Idx → EReal) : T100000x64.Idx → EReal :=
  fun i => ∑ k : Fin 1000, hot (nf (ix2 (i 0) (0 : Fin 1))) k.val * emb (ix2 k (i 1))

/-- One dense graph-convolution layer after aggregation: scale, multiply, add the bias, clamp at zero. -/
def gcnG (agg : T100000x64.Idx → EReal) (nrm : T100000x1.Idx → EReal) (w : T64x64.Idx → EReal) (b : T1x64.Idx → EReal) :
    T100000x64.Idx → EReal :=
  fun i => max ((∑ k : Fin 64, (agg (ix2 (i 0) k) * nrm (ix2 (i 0) (0 : Fin 1))) * w (ix2 k (i 1))) + b (ix2 (0 : Fin 1) (i 1))) 0

/-- The per-graph sums as a one-hot contraction over the nodes. -/
def poolG (gid : T100000x1.Idx → BitVec 32) (h : T100000x64.Idx → EReal) : T64x64.Idx → EReal :=
  fun i => ∑ n : Fin 100000, hot (gid (ix2 n (0 : Fin 1))) (i 0).val * h (ix2 n (i 1))

end Cert.Spec

end
-- ==== Proof.Emb.lean ====
/-
  Region 0 (the embedding lookup as a one-hot product): the result array after the region, as one function of the arrays
  the region finds.

  The body compares the column numbers 0 … 999 with the node's type word spread along the row, reads the equality
  bit as the real 0 or 1, and multiplies that 2000 × 1000 indicator block by the whole 1000 × 64 table into a zero
  accumulator; at the ideal values the narrowing casts change nothing, so entry (n, j) of the block is the sum over
  table rows k of [type word of node n is k] times table entry (k, j). Point t of the 50 works on rows
  2000 t … 2000 t + 1999, and those row blocks tile the 100000 rows, so the array ends as that sum everywhere.
-/
import proofs.«400514_j35381940584594_2_alg».proof.Proof.Gen.KernelIdeal.Frame
import proofs.«400514_j35381940584594_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open scoped BigOperators

variable (V : (c : Dev nD) → (b : Ref sig .tc) → Buf (Elt Ideal) ((c : Thread nD τ).loc b))

namespace Emb

/-- The zero offset pair, however it is spelt. -/
theorem zero_offsets : (![0, 0] : Fin 2 → Nat) = fun _ => 0 := funext fun a => by fin_cases a <;> rfl

/-- The widened equality bit of two words, read as a signed integer and then as a real, is the indicator that they agree. -/
theorem eq_bit_real (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by
      simp [IntOp.cmpi]
    rw [e]
    show (((1#32 : BitVec 32).toInt : ℝ) : EReal) = 1
    norm_num
  · rw [if_neg h]
    have hb : (a == b) = false := by simpa using h
    have e : (IntOp.cmpi .eq a b).setWidth 32 = 0#32 := by
      simp [IntOp.cmpi, hb]
    rw [e]
    show (((0#32 : BitVec 32).toInt : ℝ) : EReal) = 0
    norm_num

/-- The body's product block read at (n, j): the sum over table rows k of the indicator that node n's type word is k,
    times the table block's entry (k, j). -/
theorem pay_apply (x0 : Vec Ideal S2000x1 .i32) (x1 : Vec Ideal S1000x64 .f32) (j : S2000x64.Idx) :
    k0_pay1 (F := Ideal) x0 x1 j = ∑ k : Fin 1000, Cert.Spec.hot (x0 (ix2 (j 0) (0 : Fin 1))) k.val * x1 (ix2 k (j 1)) := by
  unfold k0_pay1
  simp only [matmul]
  rw [Ideal.matmul_constant_zero_apply, ← Equiv.sum_comp (contrEquiv1 dot_S2000x1000_S1000x64_S2000x64_1_0_0_1_n_n 1000 rfl rfl).symm]
  refine Finset.sum_congr rfl fun k _ => ?_
  have hk := contrEquiv1_symm_val dot_S2000x1000_S1000x64_S2000x64_1_0_0_1_n_n 1000 rfl rfl k
  generalize (contrEquiv1 dot_S2000x1000_S1000x64_S2000x64_1_0_0_1_n_n 1000 rfl rfl).symm k = q at hk
  have l0 : (dot_S2000x1000_S1000x64_S2000x64_1_0_0_1_n_n.lhsIdx j q 0).val = (j 0).val := by
    unfold DotDims.lhsIdx
    rw [dif_neg (show ¬(0 : Fin S2000x1000.rank) ∈ dot_S2000x1000_S1000x64_S2000x64_1_0_0_1_n_n.lhsBatch by decide),
      dif_pos (show (0 : Fin S2000x1000.rank) ∈ dot_S2000x1000_S1000x64_S2000x64_1_0_0_1_n_n.lhsNonContracting by decide)]
    rfl
  have l1 : (dot_S2000x1000_S1000x64_S2000x64_1_0_0_1_n_n.lhsIdx j q 1).val = k.val :=
    (dot_S2000x1000_S1000x64_S2000x64_1_0_0_1_n_n.lhsIdx_val_of_single rfl j q).trans hk
  have r0 : (dot_S2000x1000_S1000x64_S2000x64_1_0_0_1_n_n.rhsIdx j q 0).val = k.val :=
    (dot_S2000x1000_S1000x64_S2000x64_1_0_0_1_n_n.rhsIdx_val_of_single rfl j q).trans hk
  have r1 : (dot_S2000x1000_S1000x64_S2000x64_1_0_0_1_n_n.rhsIdx j q 1).val = (j 1).val := by
    unfold DotDims.rhsIdx
    rw [dif_neg (show ¬(1 : Fin S1000x64.rank) ∈ dot_S2000x1000_S1000x64_S2000x64_1_0_0_1_n_n.rhsBatch by decide),
      dif_pos (show (1 : Fin S1000x64.rank) ∈ dot_S2000x1000_S1000x64_S2000x64_1_0_0_1_n_n.rhsNonContracting by decide)]
    rfl
  have er : dot_S2000x1000_S1000x64_S2000x64_1_0_0_1_n_n.rhsIdx j q = ix2 k (j 1) :=
    funext fun a => Fin.ext (by
      match a with
      | ⟨0, _⟩ => exact r0
      | ⟨1, _⟩ => exact r1)
  generalize dot_S2000x1000_S1000x64_S2000x64_1_0_0_1_n_n.lhsIdx j q = p at l0 l1
  rw [er]
  show FloatOps.sitofp (F := Ideal) .f32 ((IntOp.cmpi .eq (iota Kind.tc S2000x1000 32 [1] iota_S2000x1000_d1_w32 p)
      (broadcastTo S2000x1000 (shapeCast S2000x1 x0 shapeCasts_S2000x1_S2000x1) broadcasts_S2000x1_S2000x1000 p)).setWidth 32) * x1 (ix2 k (j 1)) = _
  rw [eq_bit_real, shapeCast_self, iota_single_apply,
    broadcastTo_apply x0 broadcasts_S2000x1_S2000x1000 p (ix2 (j 0) (0 : Fin 1)) (fun a => by
      match a with
      | ⟨0, _⟩ => show (j 0).val = if (2000 : Nat) = 1 then 0 else (p 0).val; rw [if_neg (by decide), l0]
      | ⟨1, _⟩ => show (0 : Nat) = if (1 : Nat) = 1 then 0 else (p 1).val; rw [if_pos rfl]), l1]
  rfl

/-- The printed index maps over the grid: at point t the node-type window and the result window sit at block row t,
    column block 0, and the table window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node-type window's block at point t is rows 2000 t … 2000 t + 1999 of the node-type column. -/
theorem nf_blk_apply (c : Dev nD) (t : Fin cfg0.N) (x : S2000x1.Idx) (i : S100000x1.Idx)
    (h0 : (i 0).val = 2000 * t.val + (x 0).val) (h1 : (i 1).val = 0) :
    (iblk0 (F := Ideal) V c 0 t : Vec Ideal S2000x1 .i32) x = (V c main_v13 : S100000x1.Idx → BitVec 32) i := by
  obtain ⟨e0, e1, -⟩ := idx_facts t
  unfold iblk0
  rw [View.read_apply]
  show V c main_v13 _ = V c main_v13 _
  congr 1
  funext a
  apply Fin.ext
  have hx : (x 1).val < 1 := (x 1).isLt
  match a with
  | ⟨0, _⟩ => show win0_0.index t 0 * 2000 + 1 * (x 0).val = (i 0).val; rw [e0, h0]; omega
  | ⟨1, _⟩ => show win0_0.index t 1 * 1 + 1 * (x 1).val = (i 1).val; rw [e1, h1]; omega

/-- The table window's block at every point is the whole table. -/
theorem tab_blk_apply (c : Dev nD) (t : Fin cfg0.N) (x : S1000x64.Idx) :
    (iblk0 (F := Ideal) V c 1 t : Vec Ideal S1000x64 .f32) x = (V c main_arg0 : S1000x64.Idx → EReal) x := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 1000 + 1 * (x 0).val = (x 0).val; rw [e0]; omega
  | ⟨1, _⟩ => show win0_1.index t 1 * 64 + 1 * (x 1).val = (x 1).val; rw [e1]; omega

/-- What point t writes back is block t of the one-hot product of the whole node-type column and the whole table. -/
theorem flushed_eq (c : Dev nD) (t : Fin cfg0.N) :
    (dat0 (F := Ideal) V c).flushed 2 t
      = ((cfg0.win 2).blk t).view.read (Elt Ideal) (Cert.Spec.embG (V c main_v13) (V c main_arg0) : Buf (Elt Ideal) ((c : Thread nD τ).loc main_v14)) := by
  show (cfg0.win 2).cut (grid0.coords t) ((dat0 (F := Ideal) V c).after 2 t) = _
  rw [after0_2]
  unfold out0_2
  rw [View.canon_unit_zero zero_offsets]
  simp only [View.ld_unit_zero (S := S2000x1) zero_offsets, View.ld_unit_zero (S := S1000x64) zero_offsets]
  funext j
  obtain ⟨-, -, -, -, e0, e1⟩ := idx_facts t
  show k0_pay1 (F := Ideal) (iblk0 V c 0 t) (iblk0 V c 1 t) ((win0 2).xinj (grid0.coords t) j) = _
  rw [pay_apply, View.read_apply]
  show _ = ∑ k : Fin 1000, Cert.Spec.hot (V c main_v13 (ix2 ((((cfg0.win 2).blk t).view.emb j : S100000x64.Idx) 0) (0 : Fin 1))) k.val
      * V c main_arg0 (ix2 k ((((cfg0.win 2).blk t).view.emb j : S100000x64.Idx) 1))
  have hE0 : ((((cfg0.win 2).blk t).view.emb j : S100000x64.Idx) 0).val = 2000 * t.val + (j 0).val := by
    show win0_2.index t 0 * 2000 + 1 * (j 0).val = _
    rw [e0]; omega
  have hE1 : ((((cfg0.win 2).blk t).view.emb j : S100000x64.Idx) 1).val = (j 1).val := by
    show win0_2.index t 1 * 64 + 1 * (j 1).val = _
    rw [e1]; omega
  refine Finset.sum_congr rfl fun k _ => ?_
  rw [nf_blk_apply V c t _ (ix2 ((((cfg0.win 2).blk t).view.emb j : S100000x64.Idx) 0) (0 : Fin 1)) hE0 rfl, tab_blk_apply V c t]
  have hcol : (ix2 k ((win0 2).xinj (grid0.coords t) j 1) : S1000x64.Idx) = ix2 k ((((cfg0.win 2).blk t).view.emb j : S100000x64.Idx) 1) :=
    funext fun a => Fin.ext (by
      match a with
      | ⟨0, _⟩ => rfl
      | ⟨1, _⟩ => exact hE1.symm)
  rw [hcol]
  rfl

end Emb

/-- After region 0 its result array is the one-hot product of the node-type column and the table, whatever the entry contents. -/
theorem region0_value (c : Dev nD) :
    (dat0 (F := Ideal) V c).arrAt 2 cfg0.N
      = (Cert.Spec.embG (V c main_v13) (V c main_arg0) : Buf (Elt Ideal) ((c : Thread nD τ).loc main_v14)) := by
  refine (dat0 (F := Ideal) V c).arrAt_eq_of_cover 2 _ (fun t _ => Emb.flushed_eq V c t) fun i => ?_
  have hi0 : (i 0).val < 100000 := (i 0).isLt
  have hi1 : (i 1).val < 64 := (i 1).isLt
  have hN : cfg0.N = 50 := N_0
  have hlt : (i 0).val / 2000 < cfg0.N := by rw [hN]; omega
  obtain ⟨-, -, -, -, e0, e1⟩ := Emb.idx_facts ⟨(i 0).val / 2000, hlt⟩
  refine ⟨⟨(i 0).val / 2000, hlt⟩, flush0_2 _, ?_⟩
  show i ∈ ((View.whole main_v14).slice (win0_2.rect ⟨(i 0).val / 2000, hlt⟩)).set
  rw [View.set_slice_whole, Rect.mem_set_unit]
  intro a
  match a with
  | ⟨0, _⟩ =>
    show win0_2.index ⟨(i 0).val / 2000, hlt⟩ 0 * 2000 ≤ (i 0).val ∧ (i 0).val < win0_2.index ⟨(i 0).val / 2000, hlt⟩ 0 * 2000 + 2000
    rw [e0]
    show (i 0).val / 2000 * 2000 ≤ (i 0).val ∧ (i 0).val < (i 0).val / 2000 * 2000 + 2000
    omega
  | ⟨1, _⟩ =>
    show win0_2.index ⟨(i 0).val / 2000, hlt⟩ 1 * 64 ≤ (i 1).val ∧ (i 1).val < win0_2.index ⟨(i 0).val / 2000, hlt⟩ 1 * 64 + 64
    rw [e1]
    omega

end Cert.KernelIdeal.Hand

end
-- ==== Proof.Gcn1.lean ====
/-
  Region 1 (one dense graph-convolution layer): the result array after the region, as one function of the arrays
  the region finds: each row scaled by its normalisation, multiplied by the weight matrix, the bias added, clamped at zero.

  The steps: one grid point's stored block read entry by entry (the product into a zero accumulator is the sum over
  the 64 shared coordinates; a column spread along the rows and a row spread down the columns read their one entry; a
  change of float format is the identity on extended reals); each window's block as a part of its array (row p of the
  block at point t is row 10000 t + p; the weights and the bias row are whole); hence what point t writes back is its
  block of the dense layer of the whole arrays; the ten blocks of 10000 rows cover the 100000 rows, the block of row r
  being that of point r / 10000; so the array ends at the dense layer.
-/
import proofs.«400514_j35381940584594_2_alg».proof.Proof.Gen.KernelIdeal.Frame
import proofs.«400514_j35381940584594_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open scoped BigOperators

variable (V : (c : Dev nD) → (b : Ref sig .tc) → Buf (Elt Ideal) ((c : Thread nD τ).loc b))

/-- The two zero offsets, however spelt. -/
private theorem zero_off : (![0, 0] : Fin 2 → Nat) = fun _ => 0 := funext fun a => by fin_cases a <;> rfl

/-! ## The block product entry by entry -/

/-- The left operand's index at output entry `i` and contraction index `q`: its row is the output's row. -/
private theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Its column is the contracted coordinate. -/
private theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contracted coordinate, -/
private theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- and its column the output's column. -/
private theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] by [64,64] product accumulated onto zero: entry (p, q) is the sum over the 64 shared coordinates. -/
private theorem prod_apply (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- A column [10000,1] spread along each row's 64 entries reads the row's one entry. -/
private theorem spread_col_apply (x : FVec Ideal S10000x1 .f32) (p : Fin 10000) (q : Fin 64) :
    broadcastTo S10000x64 x broadcasts_S10000x1_S10000x64 (ix2 p q) = x (ix2 p (0 : Fin 1)) :=
  broadcastTo_apply x broadcasts_S10000x1_S10000x64 (ix2 p q) (ix2 p (0 : Fin 1)) (fun a => by
    match a with
    | ⟨0, _⟩ => show p.val = if (10000 : Nat) = 1 then 0 else p.val; rw [if_neg (by decide)]
    | ⟨1, _⟩ => show (0 : Nat) = if (1 : Nat) = 1 then 0 else q.val; rw [if_pos rfl])

/-- A row [1,64] spread down the 10000 rows reads the column's one entry. -/
private theorem spread_row_apply (x : FVec Ideal S1x64 .f32) (p : Fin 10000) (q : Fin 64) :
    broadcastTo S10000x64 x broadcasts_S1x64_S10000x64 (ix2 p q) = x (ix2 (0 : Fin 1) q) :=
  broadcastTo_apply x broadcasts_S1x64_S10000x64 (ix2 p q) (ix2 (0 : Fin 1) q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-! ## What one grid point stores, entry by entry -/

/-- The stored block at entry (p, q): the row scaled by its normalisation entry, times column q of the weights, plus
    the bias entry, clamped below at zero. The format changes do nothing to an extended real; the zero word is 0. -/
private theorem k1_pay1_apply (x0 : Vec Ideal S10000x64 .f32) (x1 : Vec Ideal S10000x1 .f32) (x2 : Vec Ideal S64x64 .f32) (x3 : Vec Ideal S1x64 .f32) (p : Fin 10000) (q : Fin 64) :
    k1_pay1 (F := Ideal) x0 x1 x2 x3 (ix2 p q)
      = max ((∑ k : Fin 64, (x0 (ix2 p k) * x1 (ix2 p (0 : Fin 1))) * x2 (ix2 k q)) + x3 (ix2 (0 : Fin 1) q)) 0 := by
  unfold k1_pay1
  simp only [shapeCast_self]
  rw [maximumf_apply, addf_apply, prod_apply, spread_row_apply, broadcast_apply]
  simp only [truncf_apply, mulf_apply, spread_col_apply, Ideal.ofBits_def, Ideal.ofBits_zero_f32]

/-! ## The windows' blocks as parts of their arrays -/

/-- The windows' index maps over the ten points: the row blocks move with the point, the weights and the bias stay. -/
private theorem win1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ t.val < 10 :=
  (by decide +kernel : ∀ t : Fin grid1.N, _)

/-- Row p of the aggregated block at point t is row 10000 t + p of the array. -/
private theorem iblk1_0_apply (c : Dev nD) (t : Fin cfg1.N) (x : S10000x64.Idx) (i : S100000x64.Idx)
    (h0 : (i 0).val = t.val * 10000 + (x 0).val) (h1 : (i 1).val = (x 1).val) :
    (iblk1 (F := Ideal) V c 0 t : Vec Ideal S10000x64 .f32) x = (V c main_v27 : S100000x64.Idx → EReal) i := by
  obtain ⟨e0, e1, -⟩ := win1_idx t
  unfold iblk1
  rw [View.read_apply]
  show V c main_v27 _ = V c main_v27 _
  congr 1
  funext a
  apply Fin.ext
  match a with
  | ⟨0, _⟩ => show win1_0.index t 0 * 10000 + 1 * (x 0).val = (i 0).val; rw [e0, h0]; omega
  | ⟨1, _⟩ => show win1_0.index t 1 * 64 + 1 * (x 1).val = (i 1).val; rw [e1, h1]; omega

/-- The same for the normalisation column. -/
private theorem iblk1_1_apply (c : Dev nD) (t : Fin cfg1.N) (x : S10000x1.Idx) (i : S100000x1.Idx)
    (h0 : (i 0).val = t.val * 10000 + (x 0).val) (h1 : (i 1).val = (x 1).val) :
    (iblk1 (F := Ideal) V c 1 t : Vec Ideal S10000x1 .f32) x = (V c main_v28 : S100000x1.Idx → EReal) i := by
  obtain ⟨-, -, e0, e1, -⟩ := win1_idx t
  unfold iblk1
  rw [View.read_apply]
  show V c main_v28 _ = V c main_v28 _
  congr 1
  funext a
  apply Fin.ext
  match a with
  | ⟨0, _⟩ => show win1_1.index t 0 * 10000 + 1 * (x 0).val = (i 0).val; rw [e0, h0]; omega
  | ⟨1, _⟩ => show win1_1.index t 1 * 1 + 1 * (x 1).val = (i 1).val; rw [e1, h1]; omega

/-- The weights' block is the whole array at every point. -/
private theorem iblk1_2_apply (c : Dev nD) (t : Fin cfg1.N) (x : S64x64.Idx) :
    (iblk1 (F := Ideal) V c 2 t : Vec Ideal S64x64 .f32) x = (V c main_arg1 : S64x64.Idx → EReal) x := by
  obtain ⟨-, -, -, -, e0, e1, -⟩ := win1_idx t
  unfold iblk1
  rw [View.read_apply]
  show V c main_arg1 _ = V c main_arg1 _
  congr 1
  funext a
  apply Fin.ext
  match a with
  | ⟨0, _⟩ => show win1_2.index t 0 * 64 + 1 * (x 0).val = (x 0).val; rw [e0]; omega
  | ⟨1, _⟩ => show win1_2.index t 1 * 64 + 1 * (x 1).val = (x 1).val; rw [e1]; omega

/-- So is the bias row's. -/
private theorem iblk1_3_apply (c : Dev nD) (t : Fin cfg1.N) (x : S1x64.Idx) :
    (iblk1 (F := Ideal) V c 3 t : Vec Ideal S1x64 .f32) x = (V c main_v29 : S1x64.Idx → EReal) x := by
  obtain ⟨-, -, -, -, -, -, e0, e1, -⟩ := win1_idx t
  unfold iblk1
  rw [View.read_apply]
  show V c main_v29 _ = V c main_v29 _
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega

/-- Entry (p, q) of what point t stores is entry (10000 t + p, q) of the dense layer of the whole arrays. -/
private theorem k1_pay1_block (c : Dev nD) (t : Fin cfg1.N) (p : Fin 10000) (q : Fin 64) (r : Fin 100000)
    (hr : r.val = t.val * 10000 + p.val) :
    k1_pay1 (F := Ideal) (iblk1 V c 0 t) (iblk1 V c 1 t) (iblk1 V c 2 t) (iblk1 V c 3 t) (ix2 p q)
      = Cert.Spec.gcnG (V c main_v27) (V c main_v28) (V c main_arg1) (V c main_v29) (ix2 r q) := by
  refine (k1_pay1_apply (iblk1 V c 0 t) (iblk1 V c 1 t) (iblk1 V c 2 t) (iblk1 V c 3 t) p q).trans ?_
  have e0 : ∀ k : Fin 64, (iblk1 (F := Ideal) V c 0 t : Vec Ideal S10000x64 .f32) (ix2 p k) = (V c main_v27 : S100000x64.Idx → EReal) (ix2 r k) :=
    fun k => iblk1_0_apply V c t (ix2 p k) (ix2 r k) hr rfl
  have e1 : (iblk1 (F := Ideal) V c 1 t : Vec Ideal S10000x1 .f32) (ix2 p (0 : Fin 1)) = (V c main_v28 : S100000x1.Idx → EReal) (ix2 r (0 : Fin 1)) :=
    iblk1_1_apply V c t (ix2 p (0 : Fin 1)) (ix2 r (0 : Fin 1)) hr rfl
  have e2 : ∀ k : Fin 64, (iblk1 (F := Ideal) V c 2 t : Vec Ideal S64x64 .f32) (ix2 k q) = (V c main_arg1 : S64x64.Idx → EReal) (ix2 k q) :=
    fun k => iblk1_2_apply V c t (ix2 k q)
  have e3 : (iblk1 (F := Ideal) V c 3 t : Vec Ideal S1x64 .f32) (ix2 (0 : Fin 1) q) = (V c main_v29 : S1x64.Idx → EReal) (ix2 (0 : Fin 1) q) :=
    iblk1_3_apply V c t (ix2 (0 : Fin 1) q)
  unfold Cert.Spec.gcnG
  rw [e1, e3]
  refine congrArg (fun s => max (s + (V c main_v29 : S1x64.Idx → EReal) (ix2 (0 : Fin 1) q)) 0) (Finset.sum_congr rfl fun k _ => ?_)
  rw [e0 k, e2 k]

/-! ## From the blocks to the array -/

/-- What point t writes back is its block of the dense layer of the arrays the region finds. -/
private theorem dat1_flushed (c : Dev nD) (t : Fin cfg1.N) :
    (dat1 (F := Ideal) V c).flushed 4 t
      = ((cfg1.win 4).blk t).view.read (Elt Ideal) (Cert.Spec.gcnG (V c main_v27) (V c main_v28) (V c main_arg1) (V c main_v29)) := by
  show (cfg1.win 4).cut (grid1.coords t) ((dat1 (F := Ideal) V c).after 4 t) = _
  rw [after1_4]
  unfold out1_4
  rw [View.canon_unit_zero zero_off]
  simp only [View.ld_unit_zero (S := S10000x64) zero_off, View.ld_unit_zero (S := S10000x1) zero_off, View.ld_unit_zero (S := S64x64) zero_off, View.ld_unit_zero (S := S1x64) zero_off]
  obtain ⟨-, -, -, -, -, -, -, -, e0, e1, hN⟩ := win1_idx t
  funext j
  have hj0 : (j 0).val < 10000 := (j 0).isLt
  have hj1 : (j 1).val < 64 := (j 1).isLt
  have hx : (cfg1.win 4).xinj (grid1.coords t) j = ix2 (⟨(j 0).val, hj0⟩ : Fin 10000) (⟨(j 1).val, hj1⟩ : Fin 64) :=
    funext fun a => by match a with | ⟨0, _⟩ => rfl | ⟨1, _⟩ => rfl
  have he : ((cfg1.win 4).blk t).view.emb j = ix2 (⟨t.val * 10000 + (j 0).val, by omega⟩ : Fin 100000) (⟨(j 1).val, hj1⟩ : Fin 64) :=
    funext fun a => Fin.ext (by
      match a with
      | ⟨0, _⟩ => show win1_4.index t 0 * 10000 + 1 * (j 0).val = t.val * 10000 + (j 0).val; rw [e0]; omega
      | ⟨1, _⟩ => show win1_4.index t 1 * 64 + 1 * (j 1).val = (j 1).val; rw [e1]; omega)
  refine (congrArg (k1_pay1 (F := Ideal) (iblk1 V c 0 t) (iblk1 V c 1 t) (iblk1 V c 2 t) (iblk1 V c 3 t)) hx).trans ?_
  refine (k1_pay1_block V c t ⟨(j 0).val, hj0⟩ ⟨(j 1).val, hj1⟩ ⟨t.val * 10000 + (j 0).val, by omega⟩ rfl).trans ?_
  exact (congrArg (Cert.Spec.gcnG (V c main_v27) (V c main_v28) (V c main_arg1) (V c main_v29)) he).symm

/-- An entry of the result array is in point t's block iff its row is among the block's 10000 rows (the 64 columns are all there). -/
private theorem win1_4_mem (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v30).slice (win1_4.rect t)).set ↔ _
  rw [View.set_slice_whole, Rect.mem_set_unit]
  exact Iff.rfl

/-- Every entry of the result array is in the block of the point its row's ten-thousand names, and every point writes back. -/
private theorem win1_4_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := by decide
  have hflush : ∀ t : Fin cfg1.N, (cfg1.win 4).flush t = true := (by decide +kernel : ∀ t : Fin grid1.N, win1_4.flush t = true)
  refine ⟨⟨(i 0).val / 10000, by rw [hN]; omega⟩, hflush _, ?_⟩
  obtain ⟨-, -, -, -, -, -, -, -, e0, e1, -⟩ := win1_idx ⟨(i 0).val / 10000, by rw [hN]; omega⟩
  rw [win1_4_mem]
  intro a
  match a with
  | ⟨0, _⟩ =>
    show win1_4.index ⟨(i 0).val / 10000, _⟩ (0 : Fin 2) * 10000 ≤ (i 0).val ∧ (i 0).val < win1_4.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win1_4.index ⟨(i 0).val / 10000, _⟩ (1 : Fin 2) * 64 ≤ (i 1).val ∧ (i 1).val < win1_4.index ⟨(i 0).val / 10000, _⟩ (1 : Fin 2) * 64 + 64
    rw [e1]; omega

/-- After region 1 its result array is the dense layer of the aggregated rows, whatever the entry contents. -/
theorem region1_value (c : Dev nD) :
    (dat1 (F := Ideal) V c).arrAt 4 cfg1.N
      = (Cert.Spec.gcnG (V c main_v27) (V c main_v28) (V c main_arg1) (V c main_v29) : Buf (Elt Ideal) ((c : Thread nD τ).loc main_v30)) :=
  (dat1 (F := Ideal) V c).arrAt_eq_of_cover 4 _ (fun t _ => dat1_flushed V c t) (fun i => win1_4_cover i)

end Cert.KernelIdeal.Hand

end
-- ==== Proof.Gcn2.lean ====
/-
  Region 2 (one dense graph-convolution layer): the result array after the region, as one function of the arrays
  the region finds: each row scaled by its normalisation, multiplied by the weight matrix, the bias added, clamped at zero.

  The steps: one grid point's stored block read entry by entry (the product into a zero accumulator is the sum over
  the 64 shared coordinates; a column spread along the rows and a row spread down the columns read their one entry; a
  change of float format is the identity on extended reals); each window's block as a part of its array (row p of the
  block at point t is row 10000 t + p; the weights and the bias row are whole); hence what point t writes back is its
  block of the dense layer of the whole arrays; the ten blocks of 10000 rows cover the 100000 rows, the block of row r
  being that of point r / 10000; so the array ends at the dense layer.
-/
import proofs.«400514_j35381940584594_2_alg».proof.Proof.Gen.KernelIdeal.Frame
import proofs.«400514_j35381940584594_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open scoped BigOperators

variable (V : (c : Dev nD) → (b : Ref sig .tc) → Buf (Elt Ideal) ((c : Thread nD τ).loc b))

/-- The two zero offsets, however spelt. -/
private theorem zero_off : (![0, 0] : Fin 2 → Nat) = fun _ => 0 := funext fun a => by fin_cases a <;> rfl

/-! ## The block product entry by entry -/

/-- The left operand's index at output entry `i` and contraction index `q`: its row is the output's row. -/
private theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Its column is the contracted coordinate. -/
private theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contracted coordinate, -/
private theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- and its column the output's column. -/
private theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] by [64,64] product accumulated onto zero: entry (p, q) is the sum over the 64 shared coordinates. -/
private theorem prod_apply (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- A column [10000,1] spread along each row's 64 entries reads the row's one entry. -/
private theorem spread_col_apply (x : FVec Ideal S10000x1 .f32) (p : Fin 10000) (q : Fin 64) :
    broadcastTo S10000x64 x broadcasts_S10000x1_S10000x64 (ix2 p q) = x (ix2 p (0 : Fin 1)) :=
  broadcastTo_apply x broadcasts_S10000x1_S10000x64 (ix2 p q) (ix2 p (0 : Fin 1)) (fun a => by
    match a with
    | ⟨0, _⟩ => show p.val = if (10000 : Nat) = 1 then 0 else p.val; rw [if_neg (by decide)]
    | ⟨1, _⟩ => show (0 : Nat) = if (1 : Nat) = 1 then 0 else q.val; rw [if_pos rfl])

/-- A row [1,64] spread down the 10000 rows reads the column's one entry. -/
private theorem spread_row_apply (x : FVec Ideal S1x64 .f32) (p : Fin 10000) (q : Fin 64) :
    broadcastTo S10000x64 x broadcasts_S1x64_S10000x64 (ix2 p q) = x (ix2 (0 : Fin 1) q) :=
  broadcastTo_apply x broadcasts_S1x64_S10000x64 (ix2 p q) (ix2 (0 : Fin 1) q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-! ## What one grid point stores, entry by entry -/

/-- The stored block at entry (p, q): the row scaled by its normalisation entry, times column q of the weights, plus
    the bias entry, clamped below at zero. The format changes do nothing to an extended real; the zero word is 0. -/
private theorem k2_pay1_apply (x0 : Vec Ideal S10000x64 .f32) (x1 : Vec Ideal S10000x1 .f32) (x2 : Vec Ideal S64x64 .f32) (x3 : Vec Ideal S1x64 .f32) (p : Fin 10000) (q : Fin 64) :
    k2_pay1 (F := Ideal) x0 x1 x2 x3 (ix2 p q)
      = max ((∑ k : Fin 64, (x0 (ix2 p k) * x1 (ix2 p (0 : Fin 1))) * x2 (ix2 k q)) + x3 (ix2 (0 : Fin 1) q)) 0 := by
  unfold k2_pay1
  simp only [shapeCast_self]
  rw [maximumf_apply, addf_apply, prod_apply, spread_row_apply, broadcast_apply]
  simp only [truncf_apply, mulf_apply, spread_col_apply, Ideal.ofBits_def, Ideal.ofBits_zero_f32]

/-! ## The windows' blocks as parts of their arrays -/

/-- The windows' index maps over the ten points: the row blocks move with the point, the weights and the bias stay. -/
private theorem win2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ t.val < 10 :=
  (by decide +kernel : ∀ t : Fin grid2.N, _)

/-- Row p of the aggregated block at point t is row 10000 t + p of the array. -/
private theorem iblk2_0_apply (c : Dev nD) (t : Fin cfg2.N) (x : S10000x64.Idx) (i : S100000x64.Idx)
    (h0 : (i 0).val = t.val * 10000 + (x 0).val) (h1 : (i 1).val = (x 1).val) :
    (iblk2 (F := Ideal) V c 0 t : Vec Ideal S10000x64 .f32) x = (V c main_v43 : S100000x64.Idx → EReal) i := by
  obtain ⟨e0, e1, -⟩ := win2_idx t
  unfold iblk2
  rw [View.read_apply]
  show V c main_v43 _ = V c main_v43 _
  congr 1
  funext a
  apply Fin.ext
  match a with
  | ⟨0, _⟩ => show win2_0.index t 0 * 10000 + 1 * (x 0).val = (i 0).val; rw [e0, h0]; omega
  | ⟨1, _⟩ => show win2_0.index t 1 * 64 + 1 * (x 1).val = (i 1).val; rw [e1, h1]; omega

/-- The same for the normalisation column. -/
private theorem iblk2_1_apply (c : Dev nD) (t : Fin cfg2.N) (x : S10000x1.Idx) (i : S100000x1.Idx)
    (h0 : (i 0).val = t.val * 10000 + (x 0).val) (h1 : (i 1).val = (x 1).val) :
    (iblk2 (F := Ideal) V c 1 t : Vec Ideal S10000x1 .f32) x = (V c main_v44 : S100000x1.Idx → EReal) i := by
  obtain ⟨-, -, e0, e1, -⟩ := win2_idx t
  unfold iblk2
  rw [View.read_apply]
  show V c main_v44 _ = V c main_v44 _
  congr 1
  funext a
  apply Fin.ext
  match a with
  | ⟨0, _⟩ => show win2_1.index t 0 * 10000 + 1 * (x 0).val = (i 0).val; rw [e0, h0]; omega
  | ⟨1, _⟩ => show win2_1.index t 1 * 1 + 1 * (x 1).val = (i 1).val; rw [e1, h1]; omega

/-- The weights' block is the whole array at every point. -/
private theorem iblk2_2_apply (c : Dev nD) (t : Fin cfg2.N) (x : S64x64.Idx) :
    (iblk2 (F := Ideal) V c 2 t : Vec Ideal S64x64 .f32) x = (V c main_arg3 : S64x64.Idx → EReal) x := by
  obtain ⟨-, -, -, -, e0, e1, -⟩ := win2_idx t
  unfold iblk2
  rw [View.read_apply]
  show V c main_arg3 _ = V c main_arg3 _
  congr 1
  funext a
  apply Fin.ext
  match a with
  | ⟨0, _⟩ => show win2_2.index t 0 * 64 + 1 * (x 0).val = (x 0).val; rw [e0]; omega
  | ⟨1, _⟩ => show win2_2.index t 1 * 64 + 1 * (x 1).val = (x 1).val; rw [e1]; omega

/-- So is the bias row's. -/
private theorem iblk2_3_apply (c : Dev nD) (t : Fin cfg2.N) (x : S1x64.Idx) :
    (iblk2 (F := Ideal) V c 3 t : Vec Ideal S1x64 .f32) x = (V c main_v45 : S1x64.Idx → EReal) x := by
  obtain ⟨-, -, -, -, -, -, e0, e1, -⟩ := win2_idx t
  unfold iblk2
  rw [View.read_apply]
  show V c main_v45 _ = V c main_v45 _
  congr 1
  funext a
  apply Fin.ext
  match a with
  | ⟨0, _⟩ => show win2_3.index t 0 * 1 + 1 * (x 0).val = (x 0).val; rw [e0]; omega
  | ⟨1, _⟩ => show win2_3.index t 1 * 64 + 1 * (x 1).val = (x 1).val; rw [e1]; omega

/-- Entry (p, q) of what point t stores is entry (10000 t + p, q) of the dense layer of the whole arrays. -/
private theorem k2_pay1_block (c : Dev nD) (t : Fin cfg2.N) (p : Fin 10000) (q : Fin 64) (r : Fin 100000)
    (hr : r.val = t.val * 10000 + p.val) :
    k2_pay1 (F := Ideal) (iblk2 V c 0 t) (iblk2 V c 1 t) (iblk2 V c 2 t) (iblk2 V c 3 t) (ix2 p q)
      = Cert.Spec.gcnG (V c main_v43) (V c main_v44) (V c main_arg3) (V c main_v45) (ix2 r q) := by
  refine (k2_pay1_apply (iblk2 V c 0 t) (iblk2 V c 1 t) (iblk2 V c 2 t) (iblk2 V c 3 t) p q).trans ?_
  have e0 : ∀ k : Fin 64, (iblk2 (F := Ideal) V c 0 t : Vec Ideal S10000x64 .f32) (ix2 p k) = (V c main_v43 : S100000x64.Idx → EReal) (ix2 r k) :=
    fun k => iblk2_0_apply V c t (ix2 p k) (ix2 r k) hr rfl
  have e1 : (iblk2 (F := Ideal) V c 1 t : Vec Ideal S10000x1 .f32) (ix2 p (0 : Fin 1)) = (V c main_v44 : S100000x1.Idx → EReal) (ix2 r (0 : Fin 1)) :=
    iblk2_1_apply V c t (ix2 p (0 : Fin 1)) (ix2 r (0 : Fin 1)) hr rfl
  have e2 : ∀ k : Fin 64, (iblk2 (F := Ideal) V c 2 t : Vec Ideal S64x64 .f32) (ix2 k q) = (V c main_arg3 : S64x64.Idx → EReal) (ix2 k q) :=
    fun k => iblk2_2_apply V c t (ix2 k q)
  have e3 : (iblk2 (F := Ideal) V c 3 t : Vec Ideal S1x64 .f32) (ix2 (0 : Fin 1) q) = (V c main_v45 : S1x64.Idx → EReal) (ix2 (0 : Fin 1) q) :=
    iblk2_3_apply V c t (ix2 (0 : Fin 1) q)
  unfold Cert.Spec.gcnG
  rw [e1, e3]
  refine congrArg (fun s => max (s + (V c main_v45 : S1x64.Idx → EReal) (ix2 (0 : Fin 1) q)) 0) (Finset.sum_congr rfl fun k _ => ?_)
  rw [e0 k, e2 k]

/-! ## From the blocks to the array -/

/-- What point t writes back is its block of the dense layer of the arrays the region finds. -/
private theorem dat2_flushed (c : Dev nD) (t : Fin cfg2.N) :
    (dat2 (F := Ideal) V c).flushed 4 t
      = ((cfg2.win 4).blk t).view.read (Elt Ideal) (Cert.Spec.gcnG (V c main_v43) (V c main_v44) (V c main_arg3) (V c main_v45)) := by
  show (cfg2.win 4).cut (grid2.coords t) ((dat2 (F := Ideal) V c).after 4 t) = _
  rw [after2_4]
  unfold out2_4
  rw [View.canon_unit_zero zero_off]
  simp only [View.ld_unit_zero (S := S10000x64) zero_off, View.ld_unit_zero (S := S10000x1) zero_off, View.ld_unit_zero (S := S64x64) zero_off, View.ld_unit_zero (S := S1x64) zero_off]
  obtain ⟨-, -, -, -, -, -, -, -, e0, e1, hN⟩ := win2_idx t
  funext j
  have hj0 : (j 0).val < 10000 := (j 0).isLt
  have hj1 : (j 1).val < 64 := (j 1).isLt
  have hx : (cfg2.win 4).xinj (grid2.coords t) j = ix2 (⟨(j 0).val, hj0⟩ : Fin 10000) (⟨(j 1).val, hj1⟩ : Fin 64) :=
    funext fun a => by match a with | ⟨0, _⟩ => rfl | ⟨1, _⟩ => rfl
  have he : ((cfg2.win 4).blk t).view.emb j = ix2 (⟨t.val * 10000 + (j 0).val, by omega⟩ : Fin 100000) (⟨(j 1).val, hj1⟩ : Fin 64) :=
    funext fun a => Fin.ext (by
      match a with
      | ⟨0, _⟩ => show win2_4.index t 0 * 10000 + 1 * (j 0).val = t.val * 10000 + (j 0).val; rw [e0]; omega
      | ⟨1, _⟩ => show win2_4.index t 1 * 64 + 1 * (j 1).val = (j 1).val; rw [e1]; omega)
  refine (congrArg (k2_pay1 (F := Ideal) (iblk2 V c 0 t) (iblk2 V c 1 t) (iblk2 V c 2 t) (iblk2 V c 3 t)) hx).trans ?_
  refine (k2_pay1_block V c t ⟨(j 0).val, hj0⟩ ⟨(j 1).val, hj1⟩ ⟨t.val * 10000 + (j 0).val, by omega⟩ rfl).trans ?_
  exact (congrArg (Cert.Spec.gcnG (V c main_v43) (V c main_v44) (V c main_arg3) (V c main_v45)) he).symm

/-- An entry of the result array is in point t's block iff its row is among the block's 10000 rows (the 64 columns are all there). -/
private theorem win2_4_mem (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v46).slice (win2_4.rect t)).set ↔ _
  rw [View.set_slice_whole, Rect.mem_set_unit]
  exact Iff.rfl

/-- Every entry of the result array is in the block of the point its row's ten-thousand names, and every point writes back. -/
private theorem win2_4_cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 10 := by decide
  have hflush : ∀ t : Fin cfg2.N, (cfg2.win 4).flush t = true := (by decide +kernel : ∀ t : Fin grid2.N, win2_4.flush t = true)
  refine ⟨⟨(i 0).val / 10000, by rw [hN]; omega⟩, hflush _, ?_⟩
  obtain ⟨-, -, -, -, -, -, -, -, e0, e1, -⟩ := win2_idx ⟨(i 0).val / 10000, by rw [hN]; omega⟩
  rw [win2_4_mem]
  intro a
  match a with
  | ⟨0, _⟩ =>
    show win2_4.index ⟨(i 0).val / 10000, _⟩ (0 : Fin 2) * 10000 ≤ (i 0).val ∧ (i 0).val < win2_4.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win2_4.index ⟨(i 0).val / 10000, _⟩ (1 : Fin 2) * 64 ≤ (i 1).val ∧ (i 1).val < win2_4.index ⟨(i 0).val / 10000, _⟩ (1 : Fin 2) * 64 + 64
    rw [e1]; omega

/-- After region 2 its result array is the dense layer of the aggregated rows, whatever the entry contents. -/
theorem region2_value (c : Dev nD) :
    (dat2 (F := Ideal) V c).arrAt 4 cfg2.N
      = (Cert.Spec.gcnG (V c main_v43) (V c main_v44) (V c main_arg3) (V c main_v45) : Buf (Elt Ideal) ((c : Thread nD τ).loc main_v46)) :=
  (dat2 (F := Ideal) V c).arrAt_eq_of_cover 4 _ (fun t _ => dat2_flushed V c t) (fun i => win2_4_cover i)

end Cert.KernelIdeal.Hand

end
-- ==== Proof.Gcn3.lean ====
/-
  Region 3 (one dense graph-convolution layer): the result array after the region, as one function of the arrays
  the region finds: each row scaled by its normalisation, multiplied by the weight matrix, the bias added, clamped at zero.

  The steps: one grid point's stored block read entry by entry (the product into a zero accumulator is the sum over
  the 64 shared coordinates; a column spread along the rows and a row spread down the columns read their one entry; a
  change of float format is the identity on extended reals); each window's block as a part of its array (row p of the
  block at point t is row 10000 t + p; the weights and the bias row are whole); hence what point t writes back is its
  block of the dense layer of the whole arrays; the ten blocks of 10000 rows cover the 100000 rows, the block of row r
  being that of point r / 10000; so the array ends at the dense layer.
-/
import proofs.«400514_j35381940584594_2_alg».proof.Proof.Gen.KernelIdeal.Frame
import proofs.«400514_j35381940584594_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open scoped BigOperators

variable (V : (c : Dev nD) → (b : Ref sig .tc) → Buf (Elt Ideal) ((c : Thread nD τ).loc b))

/-- The two zero offsets, however spelt. -/
private theorem zero_off : (![0, 0] : Fin 2 → Nat) = fun _ => 0 := funext fun a => by fin_cases a <;> rfl

/-! ## The block product entry by entry -/

/-- The left operand's index at output entry `i` and contraction index `q`: its row is the output's row. -/
private theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Its column is the contracted coordinate. -/
private theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contracted coordinate, -/
private theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- and its column the output's column. -/
private theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] by [64,64] product accumulated onto zero: entry (p, q) is the sum over the 64 shared coordinates. -/
private theorem prod_apply (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- A column [10000,1] spread along each row's 64 entries reads the row's one entry. -/
private theorem spread_col_apply (x : FVec Ideal S10000x1 .f32) (p : Fin 10000) (q : Fin 64) :
    broadcastTo S10000x64 x broadcasts_S10000x1_S10000x64 (ix2 p q) = x (ix2 p (0 : Fin 1)) :=
  broadcastTo_apply x broadcasts_S10000x1_S10000x64 (ix2 p q) (ix2 p (0 : Fin 1)) (fun a => by
    match a with
    | ⟨0, _⟩ => show p.val = if (10000 : Nat) = 1 then 0 else p.val; rw [if_neg (by decide)]
    | ⟨1, _⟩ => show (0 : Nat) = if (1 : Nat) = 1 then 0 else q.val; rw [if_pos rfl])

/-- A row [1,64] spread down the 10000 rows reads the column's one entry. -/
private theorem spread_row_apply (x : FVec Ideal S1x64 .f32) (p : Fin 10000) (q : Fin 64) :
    broadcastTo S10000x64 x broadcasts_S1x64_S10000x64 (ix2 p q) = x (ix2 (0 : Fin 1) q) :=
  broadcastTo_apply x broadcasts_S1x64_S10000x64 (ix2 p q) (ix2 (0 : Fin 1) q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-! ## What one grid point stores, entry by entry -/

/-- The stored block at entry (p, q): the row scaled by its normalisation entry, times column q of the weights, plus
    the bias entry, clamped below at zero. The format changes do nothing to an extended real; the zero word is 0. -/
private theorem k3_pay1_apply (x0 : Vec Ideal S10000x64 .f32) (x1 : Vec Ideal S10000x1 .f32) (x2 : Vec Ideal S64x64 .f32) (x3 : Vec Ideal S1x64 .f32) (p : Fin 10000) (q : Fin 64) :
    k3_pay1 (F := Ideal) x0 x1 x2 x3 (ix2 p q)
      = max ((∑ k : Fin 64, (x0 (ix2 p k) * x1 (ix2 p (0 : Fin 1))) * x2 (ix2 k q)) + x3 (ix2 (0 : Fin 1) q)) 0 := by
  unfold k3_pay1
  simp only [shapeCast_self]
  rw [maximumf_apply, addf_apply, prod_apply, spread_row_apply, broadcast_apply]
  simp only [truncf_apply, mulf_apply, spread_col_apply, Ideal.ofBits_def, Ideal.ofBits_zero_f32]

/-! ## The windows' blocks as parts of their arrays -/

/-- The windows' index maps over the ten points: the row blocks move with the point, the weights and the bias stay. -/
private theorem win3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ t.val < 10 :=
  (by decide +kernel : ∀ t : Fin grid3.N, _)

/-- Row p of the aggregated block at point t is row 10000 t + p of the array. -/
private theorem iblk3_0_apply (c : Dev nD) (t : Fin cfg3.N) (x : S10000x64.Idx) (i : S100000x64.Idx)
    (h0 : (i 0).val = t.val * 10000 + (x 0).val) (h1 : (i 1).val = (x 1).val) :
    (iblk3 (F := Ideal) V c 0 t : Vec Ideal S10000x64 .f32) x = (V c main_v59 : S100000x64.Idx → EReal) i := by
  obtain ⟨e0, e1, -⟩ := win3_idx t
  unfold iblk3
  rw [View.read_apply]
  show V c main_v59 _ = V c main_v59 _
  congr 1
  funext a
  apply Fin.ext
  match a with
  | ⟨0, _⟩ => show win3_0.index t 0 * 10000 + 1 * (x 0).val = (i 0).val; rw [e0, h0]; omega
  | ⟨1, _⟩ => show win3_0.index t 1 * 64 + 1 * (x 1).val = (i 1).val; rw [e1, h1]; omega

/-- The same for the normalisation column. -/
private theorem iblk3_1_apply (c : Dev nD) (t : Fin cfg3.N) (x : S10000x1.Idx) (i : S100000x1.Idx)
    (h0 : (i 0).val = t.val * 10000 + (x 0).val) (h1 : (i 1).val = (x 1).val) :
    (iblk3 (F := Ideal) V c 1 t : Vec Ideal S10000x1 .f32) x = (V c main_v60 : S100000x1.Idx → EReal) i := by
  obtain ⟨-, -, e0, e1, -⟩ := win3_idx t
  unfold iblk3
  rw [View.read_apply]
  show V c main_v60 _ = V c main_v60 _
  congr 1
  funext a
  apply Fin.ext
  match a with
  | ⟨0, _⟩ => show win3_1.index t 0 * 10000 + 1 * (x 0).val = (i 0).val; rw [e0, h0]; omega
  | ⟨1, _⟩ => show win3_1.index t 1 * 1 + 1 * (x 1).val = (i 1).val; rw [e1, h1]; omega

/-- The weights' block is the whole array at every point. -/
private theorem iblk3_2_apply (c : Dev nD) (t : Fin cfg3.N) (x : S64x64.Idx) :
    (iblk3 (F := Ideal) V c 2 t : Vec Ideal S64x64 .f32) x = (V c main_arg5 : S64x64.Idx → EReal) x := by
  obtain ⟨-, -, -, -, e0, e1, -⟩ := win3_idx t
  unfold iblk3
  rw [View.read_apply]
  show V c main_arg5 _ = V c main_arg5 _
  congr 1
  funext a
  apply Fin.ext
  match a with
  | ⟨0, _⟩ => show win3_2.index t 0 * 64 + 1 * (x 0).val = (x 0).val; rw [e0]; omega
  | ⟨1, _⟩ => show win3_2.index t 1 * 64 + 1 * (x 1).val = (x 1).val; rw [e1]; omega

/-- So is the bias row's. -/
private theorem iblk3_3_apply (c : Dev nD) (t : Fin cfg3.N) (x : S1x64.Idx) :
    (iblk3 (F := Ideal) V c 3 t : Vec Ideal S1x64 .f32) x = (V c main_v61 : S1x64.Idx → EReal) x := by
  obtain ⟨-, -, -, -, -, -, e0, e1, -⟩ := win3_idx t
  unfold iblk3
  rw [View.read_apply]
  show V c main_v61 _ = V c main_v61 _
  congr 1
  funext a
  apply Fin.ext
  match a with
  | ⟨0, _⟩ => show win3_3.index t 0 * 1 + 1 * (x 0).val = (x 0).val; rw [e0]; omega
  | ⟨1, _⟩ => show win3_3.index t 1 * 64 + 1 * (x 1).val = (x 1).val; rw [e1]; omega

/-- Entry (p, q) of what point t stores is entry (10000 t + p, q) of the dense layer of the whole arrays. -/
private theorem k3_pay1_block (c : Dev nD) (t : Fin cfg3.N) (p : Fin 10000) (q : Fin 64) (r : Fin 100000)
    (hr : r.val = t.val * 10000 + p.val) :
    k3_pay1 (F := Ideal) (iblk3 V c 0 t) (iblk3 V c 1 t) (iblk3 V c 2 t) (iblk3 V c 3 t) (ix2 p q)
      = Cert.Spec.gcnG (V c main_v59) (V c main_v60) (V c main_arg5) (V c main_v61) (ix2 r q) := by
  refine (k3_pay1_apply (iblk3 V c 0 t) (iblk3 V c 1 t) (iblk3 V c 2 t) (iblk3 V c 3 t) p q).trans ?_
  have e0 : ∀ k : Fin 64, (iblk3 (F := Ideal) V c 0 t : Vec Ideal S10000x64 .f32) (ix2 p k) = (V c main_v59 : S100000x64.Idx → EReal) (ix2 r k) :=
    fun k => iblk3_0_apply V c t (ix2 p k) (ix2 r k) hr rfl
  have e1 : (iblk3 (F := Ideal) V c 1 t : Vec Ideal S10000x1 .f32) (ix2 p (0 : Fin 1)) = (V c main_v60 : S100000x1.Idx → EReal) (ix2 r (0 : Fin 1)) :=
    iblk3_1_apply V c t (ix2 p (0 : Fin 1)) (ix2 r (0 : Fin 1)) hr rfl
  have e2 : ∀ k : Fin 64, (iblk3 (F := Ideal) V c 2 t : Vec Ideal S64x64 .f32) (ix2 k q) = (V c main_arg5 : S64x64.Idx → EReal) (ix2 k q) :=
    fun k => iblk3_2_apply V c t (ix2 k q)
  have e3 : (iblk3 (F := Ideal) V c 3 t : Vec Ideal S1x64 .f32) (ix2 (0 : Fin 1) q) = (V c main_v61 : S1x64.Idx → EReal) (ix2 (0 : Fin 1) q) :=
    iblk3_3_apply V c t (ix2 (0 : Fin 1) q)
  unfold Cert.Spec.gcnG
  rw [e1, e3]
  refine congrArg (fun s => max (s + (V c main_v61 : S1x64.Idx → EReal) (ix2 (0 : Fin 1) q)) 0) (Finset.sum_congr rfl fun k _ => ?_)
  rw [e0 k, e2 k]

/-! ## From the blocks to the array -/

/-- What point t writes back is its block of the dense layer of the arrays the region finds. -/
private theorem dat3_flushed (c : Dev nD) (t : Fin cfg3.N) :
    (dat3 (F := Ideal) V c).flushed 4 t
      = ((cfg3.win 4).blk t).view.read (Elt Ideal) (Cert.Spec.gcnG (V c main_v59) (V c main_v60) (V c main_arg5) (V c main_v61)) := by
  show (cfg3.win 4).cut (grid3.coords t) ((dat3 (F := Ideal) V c).after 4 t) = _
  rw [after3_4]
  unfold out3_4
  rw [View.canon_unit_zero zero_off]
  simp only [View.ld_unit_zero (S := S10000x64) zero_off, View.ld_unit_zero (S := S10000x1) zero_off, View.ld_unit_zero (S := S64x64) zero_off, View.ld_unit_zero (S := S1x64) zero_off]
  obtain ⟨-, -, -, -, -, -, -, -, e0, e1, hN⟩ := win3_idx t
  funext j
  have hj0 : (j 0).val < 10000 := (j 0).isLt
  have hj1 : (j 1).val < 64 := (j 1).isLt
  have hx : (cfg3.win 4).xinj (grid3.coords t) j = ix2 (⟨(j 0).val, hj0⟩ : Fin 10000) (⟨(j 1).val, hj1⟩ : Fin 64) :=
    funext fun a => by match a with | ⟨0, _⟩ => rfl | ⟨1, _⟩ => rfl
  have he : ((cfg3.win 4).blk t).view.emb j = ix2 (⟨t.val * 10000 + (j 0).val, by omega⟩ : Fin 100000) (⟨(j 1).val, hj1⟩ : Fin 64) :=
    funext fun a => Fin.ext (by
      match a with
      | ⟨0, _⟩ => show win3_4.index t 0 * 10000 + 1 * (j 0).val = t.val * 10000 + (j 0).val; rw [e0]; omega
      | ⟨1, _⟩ => show win3_4.index t 1 * 64 + 1 * (j 1).val = (j 1).val; rw [e1]; omega)
  refine (congrArg (k3_pay1 (F := Ideal) (iblk3 V c 0 t) (iblk3 V c 1 t) (iblk3 V c 2 t) (iblk3 V c 3 t)) hx).trans ?_
  refine (k3_pay1_block V c t ⟨(j 0).val, hj0⟩ ⟨(j 1).val, hj1⟩ ⟨t.val * 10000 + (j 0).val, by omega⟩ rfl).trans ?_
  exact (congrArg (Cert.Spec.gcnG (V c main_v59) (V c main_v60) (V c main_arg5) (V c main_v61)) he).symm

/-- An entry of the result array is in point t's block iff its row is among the block's 10000 rows (the 64 columns are all there). -/
private theorem win3_4_mem (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v62).slice (win3_4.rect t)).set ↔ _
  rw [View.set_slice_whole, Rect.mem_set_unit]
  exact Iff.rfl

/-- Every entry of the result array is in the block of the point its row's ten-thousand names, and every point writes back. -/
private theorem win3_4_cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := by decide
  have hflush : ∀ t : Fin cfg3.N, (cfg3.win 4).flush t = true := (by decide +kernel : ∀ t : Fin grid3.N, win3_4.flush t = true)
  refine ⟨⟨(i 0).val / 10000, by rw [hN]; omega⟩, hflush _, ?_⟩
  obtain ⟨-, -, -, -, -, -, -, -, e0, e1, -⟩ := win3_idx ⟨(i 0).val / 10000, by rw [hN]; omega⟩
  rw [win3_4_mem]
  intro a
  match a with
  | ⟨0, _⟩ =>
    show win3_4.index ⟨(i 0).val / 10000, _⟩ (0 : Fin 2) * 10000 ≤ (i 0).val ∧ (i 0).val < win3_4.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win3_4.index ⟨(i 0).val / 10000, _⟩ (1 : Fin 2) * 64 ≤ (i 1).val ∧ (i 1).val < win3_4.index ⟨(i 0).val / 10000, _⟩ (1 : Fin 2) * 64 + 64
    rw [e1]; omega

/-- After region 3 its result array is the dense layer of the aggregated rows, whatever the entry contents. -/
theorem region3_value (c : Dev nD) :
    (dat3 (F := Ideal) V c).arrAt 4 cfg3.N
      = (Cert.Spec.gcnG (V c main_v59) (V c main_v60) (V c main_arg5) (V c main_v61) : Buf (Elt Ideal) ((c : Thread nD τ).loc main_v62)) :=
  (dat3 (F := Ideal) V c).arrAt_eq_of_cover 4 _ (fun t _ => dat3_flushed V c t) (fun i => win3_4_cover i)

end Cert.KernelIdeal.Hand

end
-- ==== Proof.Pool.lean ====
/-
  Region 4 (the per-graph sums): the result block is reset at the first grid point and every point adds its block's
  one-hot contraction onto it; after the last point the result array holds the contraction over all the nodes.
-/
import proofs.«400514_j35381940584594_2_alg».proof.Proof.Gen.KernelIdeal.Frame
import proofs.«400514_j35381940584594_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Hand

open Cert.KernelIdeal Cert.KernelIdeal.Gen

section Helpers

open Idealize.ShloMosaic.ValueIdx
open scoped BigOperators

section Pieces
variable {F : FTy → Type} [FloatOps F]

/-- The origin of a rank-two block, spelt as the constant zero offset. -/
theorem pool_hz : (![0, 0] : Fin 2 → Nat) = fun _ => 0 := funext fun a => by fin_cases a <;> rfl

/-- At every point but the first the body's one store covers the result block: the block ends holding the update
    of the two input blocks and of what the block held before. -/
theorem pool_outB_eq (c : Dev nD) (i : grid4.Coords) (a1 : Memref sig .tc .vmem S2000x1 .i32) (h1 : a1.IsWhole)
    (a2 : Memref sig .tc .vmem S2000x64 .f32) (h2 : a2.IsWhole) (a3 : Memref sig .tc .vmem S64x64 .f32) (h3 : a3.IsWhole)
    (hc : ¬cond4_0 i) (x0 : Vec F S2000x1 .i32) (x1 : Vec F S2000x64 .f32) (xo : Vec F S64x64 .f32) :
    out4_B_2 c i a1 h1 a2 h2 a3 h3 hc x0 x1 xo = k4_pay2 x0 x1 xo := by
  unfold out4_B_2
  rw [View.read_writes_eq_canon _ _ _ (cover4_B_2 c i a1 h1 a2 h2 a3 h3 hc x0 x1 xo)]
  unfold kernelRun4_B
  dsimp only
  sl_unfold_words
  rw [View.canon_unit_zero pool_hz]
  simp only [View.readAt_eq_ld, h1.read_unread, h2.read_unread, h3.read_unread, View.ld_unit_zero (S := S2000x1) pool_hz,
    View.ld_unit_zero (S := S2000x64) pool_hz, View.ld_unit_zero (S := S64x64) pool_hz]

/-- At the first point the body first stores the zero block, reads it back, and then stores the update over it: the
    block ends holding the update of the two input blocks and of the zero block. -/
theorem pool_outA_eq (c : Dev nD) (i : grid4.Coords) (a1 : Memref sig .tc .vmem S2000x1 .i32) (h1 : a1.IsWhole)
    (a2 : Memref sig .tc .vmem S2000x64 .f32) (h2 : a2.IsWhole) (a3 : Memref sig .tc .vmem S64x64 .f32) (h3 : a3.IsWhole)
    (hc : cond4_0 i) (x0 : Vec F S2000x1 .i32) (x1 : Vec F S2000x64 .f32) :
    out4_A_2 c i a1 h1 a2 h2 a3 h3 hc x0 x1 = k4_pay2 x0 x1 (k4_pay1 (F := F)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S64x64) pool_hz, View.readCov_unit_zero (S := S64x64) _ pool_hz]
  simp only [View.readAt_eq_ld, h1.read_unread, h2.read_unread, View.ld_unit_zero (S := S2000x1) pool_hz,
    View.ld_unit_zero (S := S2000x64) pool_hz]

end Pieces
section Payload

/-- A one-hot word: the comparison bit of "column g equals the word", widened and read as a number. -/
theorem pool_hot_word (w : BitVec 32) (g : Nat) :
    (FloatOps.sitofp (F := Ideal) .f32 ((IntOp.cmpi .eq (BitVec.ofNat 32 g) w).setWidth 32) : EReal) = Cert.Spec.hot w g := by
  unfold Cert.Spec.hot
  show ((((IntOp.cmpi .eq (BitVec.ofNat 32 g) w).setWidth 32).toInt : ℝ) : EReal) = _
  unfold IntOp.cmpi
  by_cases h : BitVec.ofNat 32 g = w
  · simp [h]
  · have hb : (BitVec.ofNat 32 g == w) = false := beq_false_of_ne h
    simp [h, hb]

/-- The product's index bookkeeping: at output entry (g, j) and contraction row r the left operand is read at (r, g)
    and the right one at (r, j) — both operands are contracted along their rows. -/
theorem lhs_pool_0 (i : S64x64.Idx) (q : dot_S2000x64_S2000x64_S64x64_0_0_1_1_n_n.contr.Idx) :
    (dot_S2000x64_S2000x64_S64x64_0_0_1_1_n_n.lhsIdx i q 0).val = (q ⟨0, by decide⟩).val :=
  dot_S2000x64_S2000x64_S64x64_0_0_1_1_n_n.lhsIdx_val_of_single rfl i q
theorem lhs_pool_1 (i : S64x64.Idx) (q : dot_S2000x64_S2000x64_S64x64_0_0_1_1_n_n.contr.Idx) :
    (dot_S2000x64_S2000x64_S64x64_0_0_1_1_n_n.lhsIdx i q 1).val = (i 0).val := by
  unfold DotDims.lhsIdx
  rw [dif_neg (show ¬(1 : Fin S2000x64.rank) ∈ dot_S2000x64_S2000x64_S64x64_0_0_1_1_n_n.lhsBatch by decide), dif_pos (show (1 : Fin S2000x64.rank) ∈ dot_S2000x64_S2000x64_S64x64_0_0_1_1_n_n.lhsNonContracting by decide)]
  rfl
theorem rhs_pool_0 (i : S64x64.Idx) (q : dot_S2000x64_S2000x64_S64x64_0_0_1_1_n_n.contr.Idx) :
    (dot_S2000x64_S2000x64_S64x64_0_0_1_1_n_n.rhsIdx i q 0).val = (q ⟨0, by decide⟩).val :=
  dot_S2000x64_S2000x64_S64x64_0_0_1_1_n_n.rhsIdx_val_of_single rfl i q
theorem rhs_pool_1 (i : S64x64.Idx) (q : dot_S2000x64_S2000x64_S64x64_0_0_1_1_n_n.contr.Idx) :
    (dot_S2000x64_S2000x64_S64x64_0_0_1_1_n_n.rhsIdx i q 1).val = (i 1).val := by
  unfold DotDims.rhsIdx
  rw [dif_neg (show ¬(1 : Fin S2000x64.rank) ∈ dot_S2000x64_S2000x64_S64x64_0_0_1_1_n_n.rhsBatch by decide), dif_pos (show (1 : Fin S2000x64.rank) ∈ dot_S2000x64_S2000x64_S64x64_0_0_1_1_n_n.rhsNonContracting by decide)]
  rfl

/-- The block product read at an entry: the contraction runs over the 2000 rows of the two operands. -/
theorem pool_matmul_apply (L : FVec Ideal S2000x64 .bf16) (R : FVec Ideal S2000x64 .bf16) (g j : Fin 64) :
    matmul dot_S2000x64_S2000x64_S64x64_0_0_1_1_n_n none L R (constant S64x64 .f32 0x00000000#32) (ix2 g j)
      = ∑ r : Fin 2000, L (ix2 r g) * R (ix2 r j) := by
  refine (Ideal.matmul_constant_zero_apply dot_S2000x64_S2000x64_S64x64_0_0_1_1_n_n none L R (ix2 g j)).trans ?_
  rw [← Equiv.sum_comp (ValueIdx.contrEquiv1 dot_S2000x64_S2000x64_S64x64_0_0_1_1_n_n 2000 rfl rfl).symm]
  refine Finset.sum_congr rfl fun r _ => ?_
  have hk := ValueIdx.contrEquiv1_symm_val dot_S2000x64_S2000x64_S64x64_0_0_1_1_n_n 2000 rfl rfl r
  have el : dot_S2000x64_S2000x64_S64x64_0_0_1_1_n_n.lhsIdx (ix2 g j) ((ValueIdx.contrEquiv1 dot_S2000x64_S2000x64_S64x64_0_0_1_1_n_n 2000 rfl rfl).symm r) = ix2 r g := funext fun a => Fin.ext (by
    match a with
    | ⟨0, _⟩ => exact (lhs_pool_0 _ _).trans hk
    | ⟨1, _⟩ => exact lhs_pool_1 _ _)
  have er : dot_S2000x64_S2000x64_S64x64_0_0_1_1_n_n.rhsIdx (ix2 g j) ((ValueIdx.contrEquiv1 dot_S2000x64_S2000x64_S64x64_0_0_1_1_n_n 2000 rfl rfl).symm r) = ix2 r j := funext fun a => Fin.ext (by
    match a with
    | ⟨0, _⟩ => exact (rhs_pool_0 _ _).trans hk
    | ⟨1, _⟩ => exact rhs_pool_1 _ _)
  rw [el, er]

/-- The one-hot operand of the product at (row r, column g): is the row's graph word the number g? -/
theorem pool_onehot_apply (x0 : Vec Ideal S2000x1 .i32) (r : Fin 2000) (g : Fin 64) :
    (truncf .bf16 (sitofp (F := Ideal) .f32 (extui 32 (cmpi .eq (iota .tc S2000x64 32 [1] iota_S2000x64_d1_w32)
        (broadcastTo S2000x64 (shapeCast S2000x1 x0 shapeCasts_S2000x1_S2000x1) broadcasts_S2000x1_S2000x64)) natLt_1_32)) bitsLt_bf16_f32
        : FVec Ideal S2000x64 .bf16) (ix2 r g)
      = Cert.Spec.hot (x0 (ix2 r (0 : Fin 1))) g.val := by
  refine Eq.trans ?_ (pool_hot_word (x0 (ix2 r (0 : Fin 1))) g.val)
  show FloatOps.sitofp (F := Ideal) .f32 ((IntOp.cmpi .eq (iota .tc S2000x64 32 [1] iota_S2000x64_d1_w32 (ix2 r g))
      (broadcastTo S2000x64 (shapeCast S2000x1 x0 shapeCasts_S2000x1_S2000x1) broadcasts_S2000x1_S2000x64 (ix2 r g))).setWidth 32) = _
  have e1 : iota .tc S2000x64 32 [1] iota_S2000x64_d1_w32 (ix2 r g) = BitVec.ofNat 32 g.val :=
    iota_single_apply .tc S2000x64 32 1 iota_S2000x64_d1_w32 (ix2 r g)
  have e2 : broadcastTo S2000x64 (shapeCast S2000x1 x0 shapeCasts_S2000x1_S2000x1) broadcasts_S2000x1_S2000x64 (ix2 r g) = x0 (ix2 r (0 : Fin 1)) := by
    rw [shapeCast_self]
    refine broadcastTo_apply x0 broadcasts_S2000x1_S2000x64 (ix2 r g) (ix2 r (0 : Fin 1)) fun a => ?_
    match a with
    | ⟨0, _⟩ => rfl
    | ⟨1, _⟩ => rfl
  rw [e1, e2]

/-- The second store's value at an entry: what the block held plus the block's one-hot contraction. -/
theorem pool_pay2_apply (x0 : Vec Ideal S2000x1 .i32) (x1 : Vec Ideal S2000x64 .f32) (xo : Vec Ideal S64x64 .f32) (g j : Fin 64) :
    k4_pay2 (F := Ideal) x0 x1 xo (ix2 g j)
      = xo (ix2 g j) + ∑ r : Fin 2000, Cert.Spec.hot (x0 (ix2 r (0 : Fin 1))) g.val * x1 (ix2 r j) := by
  unfold k4_pay2
  refine (addf_apply _ _ (ix2 g j)).trans ?_
  refine congrArg₂ (· + ·) (congrFun (shapeCast_self xo shapeCasts_S64x64_S64x64) (ix2 g j)) ?_
  refine (pool_matmul_apply _ _ g j).trans ?_
  refine Finset.sum_congr rfl fun r _ => ?_
  refine congrArg₂ (· * ·) (pool_onehot_apply x0 r g) ?_
  exact congrFun (shapeCast_self x1 shapeCasts_S2000x64_S2000x64) (ix2 r j)

/-- The first store's value: zero everywhere. -/
theorem pool_pay1_apply (i : S64x64.Idx) : k4_pay1 (F := Ideal) i = 0 := by
  show Ideal.ofBits .f32 0x00000000#32 = 0
  exact Ideal.ofBits_zero_f32

end Payload

section Blocks

variable (V : (c : Dev nD) → (b : Ref sig .tc) → Buf (Elt Ideal) ((c : Thread nD τ).loc b))

/-- The graph column and the node rows as the region finds them, and their blocks at a grid point, at their literal types. -/
abbrev poolGid (c : Dev nD) : Cert.Spec.T100000x1.Idx → BitVec 32 := V c main_v63
abbrev poolRows (c : Dev nD) : Cert.Spec.T100000x64.Idx → EReal := V c main_v62
abbrev poolGidBlk (c : Dev nD) (t : Fin cfg4.N) : Vec Ideal S2000x1 .i32 := iblk4 V c 0 t
abbrev poolRowsBlk (c : Dev nD) (t : Fin cfg4.N) : Vec Ideal S2000x64 .f32 := iblk4 V c 1 t

/-- Both input windows step through the row blocks in grid order and never move along the columns. -/
theorem pool_idx_in : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, win4_0.index t (0 : Fin 2) = t.val ∧ win4_0.index t (1 : Fin 2) = 0
    ∧ win4_1.index t (0 : Fin 2) = t.val ∧ win4_1.index t (1 : Fin 2) = 0)

/-- Row r of the graph column's block at point t is row 2000 t + r of the column. -/
theorem poolGidBlk_apply (c : Dev nD) (t : Fin cfg4.N) (r : Fin 2000) (k : Fin 100000) (hk : k.val = 2000 * t.val + r.val) :
    poolGidBlk V c t (ix2 r (0 : Fin 1)) = poolGid V c (ix2 k (0 : Fin 1)) := by
  obtain ⟨e0, e1, -, -⟩ := pool_idx_in t
  unfold poolGidBlk poolGid iblk4
  rw [View.read_apply]
  show V c main_v63 _ = V c main_v63 _
  refine congrArg (V c main_v63) (funext fun a => Fin.ext ?_)
  match a with
  | ⟨0, _⟩ => show win4_0.index t (0 : Fin 2) * 2000 + 1 * r.val = k.val; rw [e0, hk]; omega
  | ⟨1, _⟩ => show win4_0.index t (1 : Fin 2) * 1 + 1 * 0 = 0; rw [e1]

/-- Row r of the node rows' block at point t is row 2000 t + r of the array, column by column. -/
theorem poolRowsBlk_apply (c : Dev nD) (t : Fin cfg4.N) (r : Fin 2000) (j : Fin 64) (k : Fin 100000) (hk : k.val = 2000 * t.val + r.val) :
    poolRowsBlk V c t (ix2 r j) = poolRows V c (ix2 k j) := by
  obtain ⟨-, -, e0, e1⟩ := pool_idx_in t
  unfold poolRowsBlk poolRows iblk4
  rw [View.read_apply]
  show V c main_v62 _ = V c main_v62 _
  refine congrArg (V c main_v62) (funext fun a => Fin.ext ?_)
  match a with
  | ⟨0, _⟩ => show win4_1.index t (0 : Fin 2) * 2000 + 1 * r.val = k.val; rw [e0, hk]; omega
  | ⟨1, _⟩ => show win4_1.index t (1 : Fin 2) * 64 + 1 * j.val = j.val; rw [e1]; omega

end Blocks

section Sum

open Cert.Spec

variable (V : (c : Dev nD) → (b : Ref sig .tc) → Buf (Elt Ideal) ((c : Thread nD τ).loc b))

/-- Block s's share of an entry of the result: the one-hot contraction over that block's 2000 rows (nothing past the
    fifty blocks). -/
def poolBlockTerm (gid : T100000x1.Idx → BitVec 32) (h : T100000x64.Idx → EReal) (s : ℕ) (i : T64x64.Idx) : EReal :=
  if hs : s < 50 then
    ∑ r : Fin 2000, hot (gid (ix2 (⟨2000 * s + r.val, by have := r.isLt; omega⟩ : Fin 100000) (0 : Fin 1))) (i 0).val
      * h (ix2 (⟨2000 * s + r.val, by have := r.isLt; omega⟩ : Fin 100000) (i 1))
  else 0

/-- One grid point's update at an entry: what the block held plus the point's share. -/
theorem pool_step_apply (c : Dev nD) (t : Fin cfg4.N) (xo : Vec Ideal S64x64 .f32) (g j : Fin 64) :
    k4_pay2 (F := Ideal) (poolGidBlk V c t) (poolRowsBlk V c t) xo (ix2 g j)
      = xo (ix2 g j) + poolBlockTerm (poolGid V c) (poolRows V c) t.val (ix2 g j) := by
  have hN : t.val < 50 := lt_of_lt_of_eq t.isLt (show cfg4.N = 50 from N_4)
  refine (pool_pay2_apply (poolGidBlk V c t) (poolRowsBlk V c t) xo g j).trans ?_
  refine congrArg (xo (ix2 g j) + ·) ?_
  unfold poolBlockTerm
  rw [dif_pos hN]
  refine Finset.sum_congr rfl fun r _ => ?_
  refine congrArg₂ (· * ·) ?_ ?_
  · exact congrArg (fun w => hot w g.val) (poolGidBlk_apply V c t r ⟨2000 * t.val + r.val, by have := r.isLt; omega⟩ rfl)
  · exact poolRowsBlk_apply V c t r j ⟨2000 * t.val + r.val, by have := r.isLt; omega⟩ rfl

/-- After point n the result block holds, entry by entry, the shares of blocks 0 … n: the first point starts from the
    zeros it stored, every later one from what the point before left. -/
theorem pool_outsAt_eq (c : Dev nD) : ∀ (n : ℕ) (hn : n < cfg4.N) (g j : Fin 64),
    (outsAt4 V c n hn : Vec Ideal S64x64 .f32) (ix2 g j)
      = ∑ s ∈ Finset.range (n + 1), poolBlockTerm (poolGid V c) (poolRows V c) s (ix2 g j)
  | 0, hn, g, j => by
    have e := outsAt4_A V c ⟨0, hn⟩ rfl
    rw [Finset.sum_range_one]
    refine (congrFun (e.trans (pool_outA_eq (F := Ideal) c (grid4.coords ⟨0, hn⟩) (ms4_0 ⟨0, hn⟩) (hs4_0 ⟨0, hn⟩)
      (ms4_1 ⟨0, hn⟩) (hs4_1 ⟨0, hn⟩) (ms4_2 ⟨0, hn⟩) (hs4_2 ⟨0, hn⟩) ((hcond4_0 ⟨0, hn⟩).mpr rfl)
      (poolGidBlk V c ⟨0, hn⟩) (poolRowsBlk V c ⟨0, hn⟩))) (ix2 g j)).trans ?_
    refine (pool_step_apply V c ⟨0, hn⟩ (k4_pay1 (F := Ideal)) g j).trans ?_
    rw [pool_pay1_apply, zero_add]
  | n + 1, hn, g, j => by
    have hN : cfg4.N = 50 := N_4
    have hB : ¬(⟨n + 1, hn⟩ : Fin cfg4.N).val % 50 = 0 := by dsimp only; omega
    have e := outsAt4_B V c ⟨n + 1, hn⟩ hB
    rw [Finset.sum_range_succ, ← pool_outsAt_eq c n (Nat.lt_of_succ_lt hn) g j]
    refine (congrFun (e.trans (pool_outB_eq (F := Ideal) c (grid4.coords ⟨n + 1, hn⟩) (ms4_0 ⟨n + 1, hn⟩) (hs4_0 ⟨n + 1, hn⟩)
      (ms4_1 ⟨n + 1, hn⟩) (hs4_1 ⟨n + 1, hn⟩) (ms4_2 ⟨n + 1, hn⟩) (hs4_2 ⟨n + 1, hn⟩)
      (fun h => hB ((hcond4_0 ⟨n + 1, hn⟩).mp h))
      (poolGidBlk V c ⟨n + 1, hn⟩) (poolRowsBlk V c ⟨n + 1, hn⟩) (outsAt4 V c n (Nat.lt_of_succ_lt hn)))) (ix2 g j)).trans ?_
    exact pool_step_apply V c ⟨n + 1, hn⟩ (outsAt4 V c n (Nat.lt_of_succ_lt hn)) g j

/-- Fifty blocks of 2000 rows are the 100000 rows: a sum block by block and row by row is the sum over all rows. -/
theorem pool_regroup (f : Fin 100000 → EReal) :
    ∑ s : Fin 50, ∑ r : Fin 2000, f ⟨2000 * s.val + r.val, by have := s.isLt; have := r.isLt; omega⟩ = ∑ n : Fin 100000, f n := by
  rw [← Fintype.sum_prod_type']
  exact Fintype.sum_equiv (finProdFinEquiv : Fin 50 × Fin 2000 ≃ Fin 100000) _ _
    (fun p => congrArg f (Fin.ext (by show 2000 * p.1.val + p.2.val = p.2.val + 2000 * p.1.val; omega)))

/-- All fifty shares of an entry add up to the contraction over every node. -/
theorem pool_total_eq (gid : T100000x1.Idx → BitVec 32) (h : T100000x64.Idx → EReal) (i : T64x64.Idx) :
    ∑ s ∈ Finset.range 50, poolBlockTerm gid h s i = poolG gid h i := by
  rw [Finset.sum_range]
  unfold poolG
  rw [← pool_regroup (fun n => hot (gid (ix2 n (0 : Fin 1))) (i 0).val * h (ix2 n (i 1)))]
  refine Finset.sum_congr rfl fun s _ => ?_
  unfold poolBlockTerm
  rw [dif_pos s.isLt]

/-- What the result block holds after the last point. -/
theorem pool_last_eq (c : Dev nD) (h49 : 49 < cfg4.N) :
    (outsAt4 V c 49 h49 : Vec Ideal S64x64 .f32) = poolG (poolGid V c) (poolRows V c) := by
  funext i
  obtain ⟨g, j, rfl⟩ : ∃ (g j : Fin 64), i = ix2 g j := ⟨i 0, i 1, eq_ix2 i⟩
  exact (pool_outsAt_eq V c 49 h49 g j).trans (pool_total_eq (poolGid V c) (poolRows V c) (ix2 g j))

end Sum

section Array

open Cert.Spec

variable (V : (c : Dev nD) → (b : Ref sig .tc) → Buf (Elt Ideal) ((c : Thread nD τ).loc b))

/-- The last grid point, the one whose block is written back. -/
abbrev poolLast : Fin cfg4.N := ⟨49, by rw [show cfg4.N = 50 from N_4]; decide⟩

/-- The result window never moves: its one block sits at the array's origin. -/
theorem pool_idx_out : (fun a => win4_2.index poolLast a * main_v64.ty.shape.size a) = fun _ => 0 :=
  funext fun a => by fin_cases a <;> decide

/-- The one write-back, after the last point, writes the contraction over every node: the block is the whole array. -/
theorem pool_flushed_eq (c : Dev nD) (t : Fin cfg4.N) (hf : (cfg4.win 2).flush t = true) :
    (dat4 V c).flushed 2 t
      = ((cfg4.win 2).blk t).view.read (Elt Ideal)
          (poolG (V c main_v63) (V c main_v62) : Buf (Elt Ideal) ((c : Thread nD τ).loc main_v64)) := by
  have hN : cfg4.N = 50 := N_4
  have h49 : t.val = 49 := by have := (flush4_2 t).mp hf; have := t.isLt; omega
  obtain rfl : t = poolLast := Fin.ext h49
  show (cfg4.win 2).cut (grid4.coords poolLast) ((dat4 V c).after 2 poolLast) = _
  rw [after4_2, pool_last_eq V c poolLast.isLt]
  exact (Memref.read_access_unit_zero (Elt Ideal) main_v64 pool_idx_out (fun a => by rw [congrFun pool_idx_out a]; simp)
    (poolG (V c main_v63) (V c main_v62) : Buf (Elt Ideal) ((c : Thread nD τ).loc main_v64))).symm

end Array

end Helpers

variable (V : (c : Dev nD) → (b : Ref sig .tc) → Buf (Elt Ideal) ((c : Thread nD τ).loc b))

/-- After region 4 its result array is the one-hot contraction of the graph column with the node rows, whatever the entry contents. -/
theorem region4_value (c : Dev nD) :
    (dat4 (F := Ideal) V c).arrAt 2 cfg4.N
      = (Cert.Spec.poolG (V c main_v63) (V c main_v62) : Buf (Elt Ideal) ((c : Thread nD τ).loc main_v64)) := by
  refine (dat4 V c).arrAt_eq_of_cover 2 _ (pool_flushed_eq V c) fun i => ⟨poolLast, (flush4_2 poolLast).mpr rfl, ?_⟩
  show i ∈ ((View.whole main_v64).slice (win4_2.rect poolLast)).set
  rw [View.set_slice_whole, Rect.mem_set_unit]
  intro a
  have h0 : (i 0 : Nat) < 64 := (i 0).isLt
  have h1 : (i 1 : Nat) < 64 := (i 1).isLt
  match a with
  | ⟨0, _⟩ =>
    show win4_2.index poolLast 0 * win4_2.size 0 ≤ (i 0 : Nat)
      ∧ (i 0 : Nat) < win4_2.index poolLast 0 * win4_2.size 0 + win4_2.xsize (grid4.coords poolLast) 0
    rw [show win4_2.index poolLast 0 * win4_2.size 0 = 0 from by decide +kernel,
      show win4_2.xsize (grid4.coords poolLast) 0 = 64 from by decide +kernel]
    omega
  | ⟨1, _⟩ =>
    show win4_2.index poolLast 1 * win4_2.size 1 ≤ (i 1 : Nat)
      ∧ (i 1 : Nat) < win4_2.index poolLast 1 * win4_2.size 1 + win4_2.xsize (grid4.coords poolLast) 1
    rw [show win4_2.index poolLast 1 * win4_2.size 1 = 0 from by decide +kernel,
      show win4_2.xsize (grid4.coords poolLast) 1 = 64 from by decide +kernel]
    omega

end Cert.KernelIdeal.Hand

end
-- ==== Proof.KValue.lean ====
/-
  The kernel's result at the ideal instance as one term of its arguments: the contents of the result buffer at the last
  segment boundary, read back boundary by boundary — each region's result array by that region's whole-array function,
  each host stretch by the functions it applies, the arguments and the two normalisations carried unchanged in between.
-/
import proofs.«400514_j35381940584594_2_alg».proof.Proof.HostK
import proofs.«400514_j35381940584594_2_alg».proof.Proof.HostPre
import proofs.«400514_j35381940584594_2_alg».proof.Proof.HostPost
import proofs.«400514_j35381940584594_2_alg».proof.Proof.HostKeep
import proofs.«400514_j35381940584594_2_alg».proof.Proof.Emb
import proofs.«400514_j35381940584594_2_alg».proof.Proof.Gcn1
import proofs.«400514_j35381940584594_2_alg».proof.Proof.Gcn2
import proofs.«400514_j35381940584594_2_alg».proof.Proof.Gcn3
import proofs.«400514_j35381940584594_2_alg».proof.Proof.Pool

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg) (c : Dev nD)

/-- An argument array's launch contents. -/
abbrev argv (r : Ref sig .tc) : Buf (Elt Ideal) ((c : Thread nD τ).loc r) := m ((c : Thread nD τ).loc r)

/-- The node features after the embedding: the one-hot product of the node types with the table. -/
def feat0 : FVec Ideal S100000x64 .f32 :=
  Cert.Spec.embG (shapeCast S100000x1 (argv m c main_arg7) shapeCasts_S100000_S100000x1) (argv m c main_arg0)

/-- One layer: message passing with the senders' normalisation, then the dense layer with the receivers'. -/
def layerK (h : FVec Ideal S100000x64 .f32) (w : FVec Ideal S64x64 .f32) (b : FVec Ideal S64 .f32) : FVec Ideal S100000x64 .f32 :=
  Cert.Spec.gcnG (aggK h (normK (argv m c main_arg8)) (argv m c main_arg8) (argv m c main_arg9))
    (shapeCast S100000x1 (normK (argv m c main_arg9)) shapeCasts_S100000_S100000x1) w (shapeCast S1x64 b shapeCasts_S64_S1x64)

def feat1 : FVec Ideal S100000x64 .f32 := layerK m c (feat0 m c) (argv m c main_arg1) (argv m c main_arg2)
def feat2 : FVec Ideal S100000x64 .f32 := layerK m c (feat1 m c) (argv m c main_arg3) (argv m c main_arg4)
def feat3 : FVec Ideal S100000x64 .f32 := layerK m c (feat2 m c) (argv m c main_arg5) (argv m c main_arg6)

/-- The kernel's result: the per-graph sums of the last features over the clamped node counts. -/
def resultK : FVec Ideal S64x64 .f32 :=
  Host.divf (Cert.Spec.poolG (shapeCast S100000x1 (argv m c main_arg10) shapeCasts_S100000_S100000x1) (feat3 m c))
    (cntK (argv m c main_arg10))

/-! ## The first region's entry -/

theorem W5_arg (r : Ref sig .tc) (hr : r ∈ args) : W5 m ρ c (Proc.devRef .tc r) = argv m c r :=
  pre_arg (W0 m ρ c) r hr
theorem W5_v10 : W5 m ρ c (Proc.devRef .tc main_v10) = normK (argv m c main_arg8) := pre_v10 (W0 m ρ c)
theorem W5_v12 : W5 m ρ c (Proc.devRef .tc main_v12) = normK (argv m c main_arg9) := pre_v12 (W0 m ρ c)
theorem W5_v13 : W5 m ρ c (Proc.devRef .tc main_v13)
    = (shapeCast S100000x1 (argv m c main_arg7) shapeCasts_S100000_S100000x1 : IVec S100000x1 32) := pre_v13 (W0 m ρ c)

/-! ## The live buffers at every later boundary are what they were at the first region's entry -/

theorem W6_live (r : Ref sig .tc) (hr : r ∈ live) : W6 m ρ c (Proc.devRef .tc r) = W5 m ρ c (Proc.devRef .tc r) := by
  simp only [live, List.mem_cons, List.not_mem_nil, or_false] at hr
  rcases hr with rfl | rfl | rfl | rfl | rfl | rfl | rfl | rfl | rfl | rfl | rfl <;> exact W6_of_ne m ρ c _ (by decide)
theorem W7_live (r : Ref sig .tc) (hr : r ∈ live) : W7 m ρ c (Proc.devRef .tc r) = W5 m ρ c (Proc.devRef .tc r) :=
  (s1_keep (W6 m ρ c) r hr).trans (W6_live m ρ c r hr)
theorem W8_live (r : Ref sig .tc) (hr : r ∈ live) : W8 m ρ c (Proc.devRef .tc r) = W5 m ρ c (Proc.devRef .tc r) := by
  refine Eq.trans ?_ (W7_live m ρ c r hr)
  simp only [live, List.mem_cons, List.not_mem_nil, or_false] at hr
  rcases hr with rfl | rfl | rfl | rfl | rfl | rfl | rfl | rfl | rfl | rfl | rfl <;>
    first
    | exact W8_of_ne m ρ c _ (by decide)
    | exact (W8_arr m ρ c 2).trans (((dat1 (V7 m ρ) c).arrAt_in 2 rfl _).trans (A_eq1 (V7 m ρ) c 2))
theorem W9_live (r : Ref sig .tc) (hr : r ∈ live) : W9 m ρ c (Proc.devRef .tc r) = W5 m ρ c (Proc.devRef .tc r) :=
  (s2_keep (W8 m ρ c) r hr).trans (W8_live m ρ c r hr)
theorem W10_live (r : Ref sig .tc) (hr : r ∈ live) : W10 m ρ c (Proc.devRef .tc r) = W5 m ρ c (Proc.devRef .tc r) := by
  refine Eq.trans ?_ (W9_live m ρ c r hr)
  simp only [live, List.mem_cons, List.not_mem_nil, or_false] at hr
  rcases hr with rfl | rfl | rfl | rfl | rfl | rfl | rfl | rfl | rfl | rfl | rfl <;>
    first
    | exact W10_of_ne m ρ c _ (by decide)
    | exact (W10_arr m ρ c 2).trans (((dat2 (V9 m ρ) c).arrAt_in 2 rfl _).trans (A_eq2 (V9 m ρ) c 2))
theorem W11_live (r : Ref sig .tc) (hr : r ∈ live) : W11 m ρ c (Proc.devRef .tc r) = W5 m ρ c (Proc.devRef .tc r) :=
  (s3_keep (W10 m ρ c) r hr).trans (W10_live m ρ c r hr)
theorem W12_live (r : Ref sig .tc) (hr : r ∈ live) : W12 m ρ c (Proc.devRef .tc r) = W5 m ρ c (Proc.devRef .tc r) := by
  refine Eq.trans ?_ (W11_live m ρ c r hr)
  simp only [live, List.mem_cons, List.not_mem_nil, or_false] at hr
  rcases hr with rfl | rfl | rfl | rfl | rfl | rfl | rfl | rfl | rfl | rfl | rfl <;>
    first
    | exact W12_of_ne m ρ c _ (by decide)
    | exact (W12_arr m ρ c 2).trans (((dat3 (V11 m ρ) c).arrAt_in 2 rfl _).trans (A_eq3 (V11 m ρ) c 2))
theorem W13_live (r : Ref sig .tc) (hr : r ∈ live) : W13 m ρ c (Proc.devRef .tc r) = W5 m ρ c (Proc.devRef .tc r) :=
  (s4_keep (W12 m ρ c) r hr).trans (W12_live m ρ c r hr)
theorem W14_live (r : Ref sig .tc) (hr : r ∈ live) : W14 m ρ c (Proc.devRef .tc r) = W5 m ρ c (Proc.devRef .tc r) := by
  refine Eq.trans ?_ (W13_live m ρ c r hr)
  simp only [live, List.mem_cons, List.not_mem_nil, or_false] at hr
  rcases hr with rfl | rfl | rfl | rfl | rfl | rfl | rfl | rfl | rfl | rfl | rfl <;> exact W14_of_ne m ρ c _ (by decide)

/-! ## The regions' results, boundary by boundary -/

theorem W6_v14 : W6 m ρ c (Proc.devRef .tc main_v14) = feat0 m c := by
  refine ((W6_arr m ρ c 2).trans (region0_value (V5 m ρ) c)).trans ?_
  show Cert.Spec.embG (W5 m ρ c (Proc.devRef .tc main_v13)) (W5 m ρ c (Proc.devRef .tc main_arg0)) = _
  rw [W5_v13, W5_arg m ρ c main_arg0 (by decide)]
  rfl

theorem W8_v30 : W8 m ρ c (Proc.devRef .tc main_v30) = feat1 m c := by
  refine ((W8_arr m ρ c 4).trans (region1_value (V7 m ρ) c)).trans ?_
  show Cert.Spec.gcnG (W7 m ρ c (Proc.devRef .tc main_v27)) (W7 m ρ c (Proc.devRef .tc main_v28))
    (W7 m ρ c (Proc.devRef .tc main_arg1)) (W7 m ρ c (Proc.devRef .tc main_v29)) = _
  rw [show W7 m ρ c (Proc.devRef .tc main_v27) = _ from s1_v27 (W6 m ρ c),
    show W7 m ρ c (Proc.devRef .tc main_v28) = _ from s1_v28 (W6 m ρ c),
    show W7 m ρ c (Proc.devRef .tc main_v29) = _ from s1_v29 (W6 m ρ c),
    W7_live m ρ c main_arg1 (by decide), W6_v14, W6_live m ρ c main_v10 (by decide), W6_live m ρ c main_arg8 (by decide),
    W6_live m ρ c main_arg9 (by decide), W6_live m ρ c main_v12 (by decide), W6_live m ρ c main_arg2 (by decide),
    W5_v10, W5_v12, W5_arg m ρ c main_arg1 (by decide), W5_arg m ρ c main_arg2 (by decide), W5_arg m ρ c main_arg8 (by decide),
    W5_arg m ρ c main_arg9 (by decide)]
  rfl

theorem W10_v46 : W10 m ρ c (Proc.devRef .tc main_v46) = feat2 m c := by
  refine ((W10_arr m ρ c 4).trans (region2_value (V9 m ρ) c)).trans ?_
  show Cert.Spec.gcnG (W9 m ρ c (Proc.devRef .tc main_v43)) (W9 m ρ c (Proc.devRef .tc main_v44))
    (W9 m ρ c (Proc.devRef .tc main_arg3)) (W9 m ρ c (Proc.devRef .tc main_v45)) = _
  rw [show W9 m ρ c (Proc.devRef .tc main_v43) = _ from s2_v43 (W8 m ρ c),
    show W9 m ρ c (Proc.devRef .tc main_v44) = _ from s2_v44 (W8 m ρ c),
    show W9 m ρ c (Proc.devRef .tc main_v45) = _ from s2_v45 (W8 m ρ c),
    W9_live m ρ c main_arg3 (by decide), W8_v30, W8_live m ρ c main_v10 (by decide), W8_live m ρ c main_arg8 (by decide),
    W8_live m ρ c main_arg9 (by decide), W8_live m ρ c main_v12 (by decide), W8_live m ρ c main_arg4 (by decide),
    W5_v10, W5_v12, W5_arg m ρ c main_arg3 (by decide), W5_arg m ρ c main_arg4 (by decide), W5_arg m ρ c main_arg8 (by decide),
    W5_arg m ρ c main_arg9 (by decide)]
  rfl

theorem W12_v62 : W12 m ρ c (Proc.devRef .tc main_v62) = feat3 m c := by
  refine ((W12_arr m ρ c 4).trans (region3_value (V11 m ρ) c)).trans ?_
  show Cert.Spec.gcnG (W11 m ρ c (Proc.devRef .tc main_v59)) (W11 m ρ c (Proc.devRef .tc main_v60))
    (W11 m ρ c (Proc.devRef .tc main_arg5)) (W11 m ρ c (Proc.devRef .tc main_v61)) = _
  rw [show W11 m ρ c (Proc.devRef .tc main_v59) = _ from s3_v59 (W10 m ρ c),
    show W11 m ρ c (Proc.devRef .tc main_v60) = _ from s3_v60 (W10 m ρ c),
    show W11 m ρ c (Proc.devRef .tc main_v61) = _ from s3_v61 (W10 m ρ c),
    W11_live m ρ c main_arg5 (by decide), W10_v46, W10_live m ρ c main_v10 (by decide), W10_live m ρ c main_arg8 (by decide),
    W10_live m ρ c main_arg9 (by decide), W10_live m ρ c main_v12 (by decide), W10_live m ρ c main_arg6 (by decide),
    W5_v10, W5_v12, W5_arg m ρ c main_arg5 (by decide), W5_arg m ρ c main_arg6 (by decide), W5_arg m ρ c main_arg8 (by decide),
    W5_arg m ρ c main_arg9 (by decide)]
  rfl

theorem W14_v64 : W14 m ρ c (Proc.devRef .tc main_v64)
    = Cert.Spec.poolG (shapeCast S100000x1 (argv m c main_arg10) shapeCasts_S100000_S100000x1) (feat3 m c) := by
  refine ((W14_arr m ρ c 2).trans (region4_value (V13 m ρ) c)).trans ?_
  show Cert.Spec.poolG (W13 m ρ c (Proc.devRef .tc main_v63)) (W13 m ρ c (Proc.devRef .tc main_v62)) = _
  rw [show W13 m ρ c (Proc.devRef .tc main_v63) = _ from s4_v63 (W12 m ρ c),
    show W13 m ρ c (Proc.devRef .tc main_v62) = _ from s4_v62 (W12 m ρ c),
    W12_v62, W12_live m ρ c main_arg10 (by decide), W5_arg m ρ c main_arg10 (by decide)]

/-- The result buffer at the last boundary is `resultK`. -/
theorem W17_v72 : W17 m ρ c (Proc.devRef .tc main_v72) = resultK m c := by
  refine (post_v72 (W14 m ρ c)).trans ?_
  rw [W14_v64, W14_live m ρ c main_arg10 (by decide), W5_arg m ρ c main_arg10 (by decide)]
  rfl

end Cert.KernelIdeal.Hand

end
-- ==== Proof.BridgeEmb.lean ====
/-
  The reference's table lookup is the one-hot product when every node type lies in the table's range: a negative index
  would wrap and an index past the end would clamp, and neither happens inside the range, so row `n` of the gather is the
  table's row number `node type of n`, which is the only row the one-hot sum keeps.
-/
import proofs.«400514_j35381940584594_2_alg».proof.ReferenceIdeal
import proofs.«400514_j35381940584594_2_alg».proof.Proof.Gen.ReferenceIdeal
import proofs.«400514_j35381940584594_2_alg».proof.Proof.Spec
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.ReferenceIdeal.Hand

open Cert.ReferenceIdeal Cert.ReferenceIdeal.Gen

namespace BridgeEmb

/-- The gather's dimension numbers: one collapsed, start-indexed row axis; one offset (column) axis. -/
abbrev G := gather_S1000x64_S100000x1_S100000x64_1_0_n_n_0_1_164

/-- The table index the gather reads for result `(n, j)`: row = the `n`-th start index read signed and clamped into
    `[0, 999]`, column `j`. -/
theorem operandIdx_eq (idx : IVec S100000x1 32) (i : S100000x64.Idx) :
    G.operandIdx i idx = ix2 (⟨min (idx (ix2 (i 0) (0 : Fin 1))).toInt.toNat 999, by omega⟩ : Fin 1000) (i 1) := by
  funext a
  refine Fin.ext ?_
  match a with
  | ⟨0, _⟩ =>
    -- the row axis is collapsed and not batching: only the clamped start contributes
    show G.start i idx 0 + G.batchCoord i 0 + G.offCoord i 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx i ⟨List.idxOf (0 : Fin 2) G.startIndexMap,
        List.idxOf_lt_length_iff.2 (List.mem_singleton.mpr rfl)⟩ = ix2 (i 0) (0 : Fin 1) := by
      funext b; refine Fin.ext ?_
      match b with
      | ⟨0, _⟩ => rfl
      | ⟨1, _⟩ => rfl
    rw [hsi]
    rfl
  | ⟨1, _⟩ =>
    -- the column axis is not start-indexed and not batching: only the offset coordinate contributes
    show G.start i idx 1 + G.batchCoord i 1 + G.offCoord i 1 = (i 1).val
    have hs : G.start i idx 1 = 0 := by
      unfold GatherDims.start
      rw [dif_neg (show (1 : Fin 2) ∉ G.startIndexMap by decide)]
    rw [hs, GatherDims.batchCoord_eq_zero _ _ _ List.not_mem_nil]
    unfold GatherDims.offCoord
    rw [dif_pos (show (1 : Fin 2) ∈ G.sKept by decide)]
    simp only [Nat.zero_add]
    rfl

/-- The gather read at `(n, j)` is the table at `(r, j)` once the clamped start index of row `n` is known to be `r`. -/
theorem gather_row {α : Type} (x : S1000x64.Idx → α) (idx : IVec S100000x1 32) (i : S100000x64.Idx) (r : Fin 1000)
    (h : min (idx (ix2 (i 0) (0 : Fin 1))).toInt.toNat 999 = r.val) :
    Host.gather G x idx i = x (ix2 r (i 1)) := by
  unfold Host.gather
  rw [operandIdx_eq]
  exact congrArg x (congrArg (fun a : Fin 1000 => (ix2 a (i 1) : S1000x64.Idx)) (Fin.ext h))

/-- A vector laid out as a one-column array reads, at `(n, 0)`, the vector at `n`. -/
theorem col_read {α : Type} (h : S100000.BroadcastsInDim S100000x1 ![0]) (v : S100000.Idx → α) (n : Fin 100000) :
    broadcastInDim S100000x1 ![0] h v (ix2 n (0 : Fin 1)) = v (ix1 n) :=
  broadcastInDim_apply _ _ _ _ (ix1 n) (fun a => by
    match a with
    | ⟨0, _⟩ =>
      show n.val = if (100000 : Nat) = 1 then 0 else n.val
      rw [if_neg (by decide)])

/-- The wrap of negative indices leaves a non-negative word alone: the signed test "below zero" fails. -/
theorem wrap_id (w : BitVec 32) (h0 : 0 ≤ w.toInt) :
    Scalar.select (IntOp.cmpi .slt w 0#32) (IntOp.addi w 1000#32) w = w := by
  have hlt : w.slt 0#32 = false := by
    simp only [BitVec.slt, BitVec.toInt_zero]
    exact decide_eq_false (by omega)
  have hc : IntOp.cmpi .slt w 0#32 = 0#1 := by
    unfold IntOp.cmpi
    simp only [hlt]
    rfl
  rw [hc]
  exact select_zero _ _

/-- A word whose signed value is non-negative has that value as its unsigned value. -/
theorem toNat_of_nonneg (w : BitVec 32) (h0 : 0 ≤ w.toInt) : w.toInt.toNat = w.toNat := by
  have h := BitVec.toInt_eq_toNat_cond w
  have hw := w.isLt
  split at h <;> omega

/-- The indicator of "the word is `k`", for `k` below `2 ^ 32`, is the indicator of "`k` is the word's unsigned value". -/
theorem hot_eq (w : BitVec 32) (k : Nat) (hk : k < 2 ^ 32) : Cert.Spec.hot w k = if k = w.toNat then 1 else 0 := by
  unfold Cert.Spec.hot
  by_cases h : k = w.toNat
  · rw [if_pos h, if_pos (by
      apply BitVec.eq_of_toNat_eq
      rw [BitVec.toNat_ofNat, h]
      exact Nat.mod_eq_of_lt w.isLt)]
  · rw [if_neg h, if_neg (fun he => h (by
      have := congrArg BitVec.toNat he
      rw [BitVec.toNat_ofNat, Nat.mod_eq_of_lt hk] at this
      exact this))]

end BridgeEmb

open BridgeEmb

/-- Inside the table's range the gather of the table's rows is the one-hot product. -/
theorem gather_eq_embG (emb : FVec Ideal S1000x64 .f32) (nf : IVec S100000 32) (hc : S100000.ShapeCasts S100000x1)
    (hr : ∀ n : S100000.Idx, 0 ≤ (nf n).toInt ∧ (nf n).toInt < 1000) :
    Host.gather gather_S1000x64_S100000x1_S100000x64_1_0_n_n_0_1_164 emb
      (broadcastInDim S100000x1 ![0] bcast_S100000_S100000x1_0
        (select (cmpi .slt nf (broadcastInDim S100000 ![] bcast_S_S100000 (constantI S_ 32 0#32)))
          (addi nf (broadcastInDim S100000 ![] bcast_S_S100000 (constantI S_ 32 1000#32))) nf))
      = Cert.Spec.embG (shapeCast S100000x1 nf hc) emb := by
  funext i
  -- the node's type word, its range, and its unsigned value
  obtain ⟨h0, h1⟩ := hr (ix1 (i 0))
  have hnat := toNat_of_nonneg (nf (ix1 (i 0))) h0
  have hlt : (nf (ix1 (i 0))).toNat < 1000 := by omega
  -- left: the start index of row `i 0` is the type word itself (no wrap), and the clamp does nothing below 1000
  have hidx : (broadcastInDim S100000x1 ![0] bcast_S100000_S100000x1_0
        (select (cmpi .slt nf (broadcastInDim S100000 ![] bcast_S_S100000 (constantI S_ 32 0#32)))
          (addi nf (broadcastInDim S100000 ![] bcast_S_S100000 (constantI S_ 32 1000#32))) nf)) (ix2 (i 0) (0 : Fin 1))
      = nf (ix1 (i 0)) := by
    refine (col_read _ _ (i 0)).trans ?_
    exact wrap_id (nf (ix1 (i 0))) h0
  have hmin : min ((broadcastInDim S100000x1 ![0] bcast_S100000_S100000x1_0
        (select (cmpi .slt nf (broadcastInDim S100000 ![] bcast_S_S100000 (constantI S_ 32 0#32)))
          (addi nf (broadcastInDim S100000 ![] bcast_S_S100000 (constantI S_ 32 1000#32))) nf))
        (ix2 (i 0) (0 : Fin 1))).toInt.toNat 999 = (nf (ix1 (i 0))).toNat := by
    rw [hidx]; omega
  refine (gather_row emb _ i ⟨(nf (ix1 (i 0))).toNat, hlt⟩ hmin).trans ?_
  -- right: the reshaped word at `(i 0, 0)` is the same word, and the sum keeps only its row
  have hcast : shapeCast S100000x1 nf hc (ix2 (i 0) (0 : Fin 1)) = nf (ix1 (i 0)) :=
    shapeCast_apply nf hc _ _ (by
      rw [Shape.rowMajor_val_one, Shape.rowMajor_val_two]
      show (i 0).val = (i 0).val * 1 + 0
      omega)
  show _ = ∑ k : Fin 1000, Cert.Spec.hot (shapeCast S100000x1 nf hc (ix2 (i 0) (0 : Fin 1))) k.val * emb (ix2 k (i 1))
  rw [hcast, Finset.sum_eq_single (⟨(nf (ix1 (i 0))).toNat, hlt⟩ : Fin 1000)]
  · rw [hot_eq _ _ (by omega), if_pos rfl, one_mul]
  · intro k _ hk
    rw [hot_eq _ _ (by have := k.isLt; omega), if_neg (fun he => hk (Fin.ext he)), zero_mul]
  · intro h
    exact absurd (Finset.mem_univ _) h

end Cert.ReferenceIdeal.Hand

end
-- ==== Proof.BridgeGcn.lean ====
/-
  The reference's dense layer — the aggregated rows times the broadcast normalisation, the matrix product with the
  weights, the broadcast bias added, the maximum with zero — is `gcnG` of the same arrays with the normalisation read as a
  column and the bias as a row.
-/
import proofs.«400514_j35381940584594_2_alg».proof.ReferenceIdeal
import proofs.«400514_j35381940584594_2_alg».proof.Proof.Gen.ReferenceIdeal
import proofs.«400514_j35381940584594_2_alg».proof.Proof.Spec
import Idealize.ShloMosaic.Lib.ValueIdx
import Idealize.ShloMosaic.Lib.ValueLayout
import Idealize.ShloMosaic.PureOps.Ideal.Laws

noncomputable section

open Idealize.ShloMosaic

namespace Cert.ReferenceIdeal.Hand

open Cert.ReferenceIdeal Cert.ReferenceIdeal.Gen
open Idealize.ShloMosaic.ValueIdx
open scoped BigOperators

/-! ## The broadcasts and the casts, read at an entry -/

/-- A vector over the rows, made a column and then repeated along every row, reads at `(n, j)` its entry `n`. -/
theorem rows_spread_apply {α : Type} (x : S100000.Idx → α) (n : Fin 100000) (j : Fin 64) :
    broadcastInDim S100000x64 ![0, 1] bcast_S100000x1_S100000x64_0_1 (broadcastInDim S100000x1 ![0] bcast_S100000_S100000x1_0 x) (ix2 n j)
      = x (ix1 n) := by
  refine (broadcastInDim_apply _ bcast_S100000x1_S100000x64_0_1 _ (ix2 n j) (ix2 n (0 : Fin 1)) (fun a => match a with
    | ⟨0, _⟩ => by show n.val = if (100000 : Nat) = 1 then 0 else n.val; rw [if_neg (by decide)]
    | ⟨1, _⟩ => by show 0 = if (1 : Nat) = 1 then 0 else j.val; rw [if_pos rfl])).trans ?_
  exact broadcastInDim_apply _ bcast_S100000_S100000x1_0 x (ix2 n (0 : Fin 1)) (ix1 n) (fun a => match a with
    | ⟨0, _⟩ => by show n.val = if (100000 : Nat) = 1 then 0 else n.val; rw [if_neg (by decide)])

/-- A vector over the columns, made a row and then repeated down every column, reads at `(n, j)` its entry `j`. -/
theorem cols_spread_apply {α : Type} (x : S64.Idx → α) (n : Fin 100000) (j : Fin 64) :
    broadcastInDim S100000x64 ![0, 1] bcast_S1x64_S100000x64_0_1 (broadcastInDim S1x64 ![1] bcast_S64_S1x64_1 x) (ix2 n j)
      = x (ix1 j) := by
  refine (broadcastInDim_apply _ bcast_S1x64_S100000x64_0_1 _ (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])).trans ?_
  exact broadcastInDim_apply _ bcast_S64_S1x64_1 x (ix2 (0 : Fin 1) j) (ix1 j) (fun a => match a with
    | ⟨0, _⟩ => by show j.val = if (64 : Nat) = 1 then 0 else j.val; rw [if_neg (by decide)])

/-- The zero word spread over the whole array is the number zero at every entry. -/
theorem zero_spread_apply (i : S100000x64.Idx) :
    broadcastInDim S100000x64 ![] bcast_S_S100000x64 (constant (F := Ideal) S_ .f32 0x00000000#32) i = (0 : EReal) := by
  refine (broadcastInDim_apply _ bcast_S_S100000x64 _ i ix0 (fun a => a.elim0)).trans ?_
  rw [constant_apply]
  exact Ideal.ofBits_zero_f32

/-- A vector over the rows recast as a one-column matrix reads at `(n, u)` its entry `n`: the row-major position of
    `(n, u)` in a matrix with one column is `n`. -/
theorem column_cast_apply {α : Type} (x : S100000.Idx → α) (hc : S100000.ShapeCasts S100000x1) (n : Fin 100000) (u : Fin 1) :
    shapeCast S100000x1 x hc (ix2 n u) = x (ix1 n) :=
  shapeCast_apply x hc _ _ (by
    have hu : u.val = 0 := by omega
    rw [Shape.rowMajor_val_two, Shape.rowMajor_val_one]
    show n.val = n.val * 1 + u.val
    omega)

/-! ## The matrix product, read at an entry -/

/-- The left operand's index of the product, on the row axis, is the output's row. -/
theorem prod_left_row (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

/-- The left operand's index, on the column axis, is the summation index. -/
theorem prod_left_col (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

/-- The right operand's index, on the row axis, is the summation index. -/
theorem prod_right_row (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

/-- The right operand's index, on the column axis, is the output's column. -/
theorem prod_right_col (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The product of a 100000 × 64 matrix with a 64 × 64 matrix at entry `(n, j)`: the sum over `k` of `y (n, k) * w (k, j)`. -/
theorem prod_apply (y : FVec Ideal S100000x64 .f32) (w : FVec Ideal S64x64 .f32) (n : Fin 100000) (j : Fin 64) :
    Host.dotGeneral (F := Ideal) dot_S100000x64_S64x64_S100000x64_1_0_0_1_n_n none y w (ix2 n j)
      = ∑ k : Fin 64, y (ix2 n k) * w (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n j) ((contrEquiv1 dot_S100000x64_S64x64_S100000x64_1_0_0_1_n_n 64 rfl rfl).symm k)
      = ix2 n k := funext fun a => Fin.ext (by
    match a with
    | ⟨0, _⟩ => exact prod_left_row _ _
    | ⟨1, _⟩ => exact (prod_left_col _ _).trans hk)
  have er : dot_S100000x64_S64x64_S100000x64_1_0_0_1_n_n.rhsIdx (ix2 n j) ((contrEquiv1 dot_S100000x64_S64x64_S100000x64_1_0_0_1_n_n 64 rfl rfl).symm k)
      = ix2 k j := funext fun a => Fin.ext (by
    match a with
    | ⟨0, _⟩ => exact (prod_right_row _ _).trans hk
    | ⟨1, _⟩ => exact prod_right_col _ _)
  rw [el, er]

/-! ## The layer -/

/-- The reference's layer after aggregation is `gcnG`. -/
theorem layer_eq_gcnG (agg : FVec Ideal S100000x64 .f32) (nrm : FVec Ideal S100000 .f32) (w : FVec Ideal S64x64 .f32) (b : FVec Ideal S64 .f32)
    (hc : S100000.ShapeCasts S100000x1) (hb : S64.ShapeCasts S1x64) :
    maximumf (addf (Host.dotGeneral dot_S100000x64_S64x64_S100000x64_1_0_0_1_n_n none
        (mulf agg (broadcastInDim S100000x64 ![0, 1] bcast_S100000x1_S100000x64_0_1 (broadcastInDim S100000x1 ![0] bcast_S100000_S100000x1_0 nrm))) w)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
      = Cert.Spec.gcnG agg (shapeCast S100000x1 nrm hc) w (shapeCast S1x64 b hb) := by
  funext i
  -- split the entry's index into its row `n` and its column `j`
  obtain ⟨n, j, rfl⟩ : ∃ (n : Fin 100000) (j : Fin 64), i = ix2 n j := ⟨i 0, i 1, eq_ix2 i⟩
  -- the left side: maximum, sum, product and the two spread vectors read at `(n, j)`
  rw [maximumf_apply, addf_apply, prod_apply, cols_spread_apply, zero_spread_apply]
  -- the right side, with the coordinates of `(n, j)` computed
  show max ((∑ k : Fin 64, mulf agg (broadcastInDim S100000x64 ![0, 1] bcast_S100000x1_S100000x64_0_1
        (broadcastInDim S100000x1 ![0] bcast_S100000_S100000x1_0 nrm)) (ix2 n k) * w (ix2 k j)) + b (ix1 j)) 0
    = max ((∑ k : Fin 64, agg (ix2 n k) * shapeCast S100000x1 nrm hc (ix2 n (0 : Fin 1)) * w (ix2 k j))
        + shapeCast S1x64 b hb (ix2 (0 : Fin 1) j)) 0
  rw [column_cast_apply, shapeCast_a_1a_apply]
  -- term by term, the scaled row entry is the row entry times the node's normalisation
  refine congrArg (fun t => max (t + b (ix1 j)) 0) (Finset.sum_congr rfl fun k _ => ?_)
  rw [mulf_apply, rows_spread_apply]

end Cert.ReferenceIdeal.Hand

end
-- ==== Proof.BridgePool.lean ====
/-
  The reference's segment sum into 64 graphs — a scatter with addition into zeros, an update whose graph number falls
  outside the 64 dropped — is the one-hot contraction `poolG`: entry `(g, j)` adds `h n j` over exactly the nodes `n`
  whose graph word is `g`.

  The argument: with the scatter's literal dimension numbers, update `(n, j')` starts at row "graph word of `n`, read
  signed" and column `0`, and its window offset is `0` on the row axis and `j'` on the column axis. So it lands on entry
  `(g, j)` exactly when that signed word is `g` and `j' = j`; a word outside `[0, 64)` lands nowhere. Summing `h` over the
  updates that land on `(g, j)` is then, node by node, `h n j` when the word of `n` is `g` and `0` otherwise, and for
  `g < 64` "the word read signed is `g`" is the same test as "the word is the 32-bit word of `g`", which is the one-hot
  factor. The zeros operand adds `0`.
-/
import proofs.«400514_j35381940584594_2_alg».proof.ReferenceIdeal
import proofs.«400514_j35381940584594_2_alg».proof.Proof.Gen.ReferenceIdeal
import proofs.«400514_j35381940584594_2_alg».proof.Proof.Spec
import Idealize.ShloMosaic.Lib.ValueIdx
import Idealize.ShloMosaic.Lib.ValueLayout
import Idealize.ShloMosaic.PureOps.Ideal.Laws

noncomputable section

open Idealize.ShloMosaic

namespace Cert.ReferenceIdeal.Hand

open Cert.ReferenceIdeal Cert.ReferenceIdeal.Gen
open Idealize.ShloMosaic.ValueIdx
open scoped BigOperators

/-- The broadcast of the graph words to a column reads, at row `n`, the word of node `n`. -/
private theorem pool_bcast_col_apply (gid : IVec S100000 32) (k : S100000x1.Idx) :
    broadcastInDim S100000x1 ![0] bcast_S100000_S100000x1_0 gid k = gid (ix1 (k 0)) := by
  refine broadcastInDim_apply _ _ _ _ _ ?_
  intro a
  match a with
  | ⟨0, _⟩ => rfl

/-- The column reshape of the graph words reads, at row `n`, the word of node `n`. -/
private theorem pool_cast_col_apply (gid : IVec S100000 32) (hc : S100000.ShapeCasts S100000x1) (n : Fin 100000) :
    shapeCast S100000x1 gid hc (ix2 n (0 : Fin 1)) = gid (ix1 n) := by
  refine shapeCast_apply _ _ _ _ ?_
  rw [Shape.rowMajor_val_one, Shape.rowMajor_val_two]
  show n.val = n.val * 1 + 0
  omega

/-- On the row axis an update's window starts at the signed graph word of the update's node. -/
private theorem pool_start0 (u : S100000x64.Idx) (idx : IVec S100000x1 32) :
    scatter_S64x64_S100000x1_S100000x64_1_0_0_1.start u idx 0 = (idx (ix2 (u 0) (0 : Fin 1))).toInt := by
  unfold ScatterDims.start
  rw [dif_pos (show (0 : Fin 2) ∈ scatter_S64x64_S100000x1_S100000x64_1_0_0_1.scatterDimsToOperandDims from List.mem_singleton.mpr rfl)]
  congr 2
  funext b; refine Fin.ext ?_
  match b with
  | ⟨0, _⟩ => rfl
  | ⟨1, _⟩ => rfl

/-- On the column axis, which the index vector does not address, an update's window starts at `0`. -/
private theorem pool_start1 (u : S100000x64.Idx) (idx : IVec S100000x1 32) :
    scatter_S64x64_S100000x1_S100000x64_1_0_0_1.start u idx 1 = 0 := by
  unfold ScatterDims.start
  rw [dif_neg (show ¬ (1 : Fin 2) ∈ scatter_S64x64_S100000x1_S100000x64_1_0_0_1.scatterDimsToOperandDims by decide)]

/-- The row axis is an inserted axis: the window offset there is `0`. -/
private theorem pool_window0 (u : S100000x64.Idx) :
    scatter_S64x64_S100000x1_S100000x64_1_0_0_1.window u 0 = 0 := by
  unfold ScatterDims.window
  rw [dif_neg (show ¬ (0 : Fin 2) ∈ scatter_S64x64_S100000x1_S100000x64_1_0_0_1.sKept by decide)]

/-- The column axis carries the update's one window axis: the offset there is the update's column. -/
private theorem pool_window1 (u : S100000x64.Idx) :
    scatter_S64x64_S100000x1_S100000x64_1_0_0_1.window u 1 = (u 1).val := by
  unfold ScatterDims.window
  rw [dif_pos (show (1 : Fin 2) ∈ scatter_S64x64_S100000x1_S100000x64_1_0_0_1.sKept by decide)]
  rfl

/-- A 32-bit word read as a signed integer is the small natural `g` exactly when it is the word of `g`. -/
private theorem pool_toInt_eq_iff (w : BitVec 32) (g : Fin 64) : w.toInt = (g.val : Int) ↔ BitVec.ofNat 32 g.val = w := by
  constructor
  · intro hw
    have := BitVec.ofInt_toInt (x := w)
    rw [hw, BitVec.ofInt_natCast] at this
    exact this
  · intro hw
    subst hw
    revert g
    decide

/-- An update `(n, j')` lands on operand entry `(g, j)` exactly when node `n`'s word read signed is `g` and `j' = j`. -/
private theorem pool_resultIdx_eq_some_iff (u : S100000x64.Idx) (idx : IVec S100000x1 32) (i : S64x64.Idx) :
    scatter_S64x64_S100000x1_S100000x64_1_0_0_1.resultIdx? u idx = some i ↔
      ((idx (ix2 (u 0) (0 : Fin 1))).toInt = ((i 0).val : Int) ∧ u 1 = i 1) := by
  have hi0 : (i 0).val < 64 := idx2_lt0 i
  have hi1 : (i 1).val < 64 := idx2_lt1 i
  have hu1 : (u 1).val < 64 := idx2_lt1 u
  unfold ScatterDims.resultIdx?
  split
  · rename_i hall
    rw [Option.some.injEq]
    constructor
    · intro he
      have e0 := congrArg (fun f => (f 0).val) he
      have e1 := congrArg (fun f => (f 1).val) he
      simp only [pool_start0, pool_start1, pool_window0, pool_window1] at e0 e1
      refine ⟨?_, Fin.ext ?_⟩
      · have := (hall 0).1
        rw [pool_start0, pool_window0] at this
        omega
      · omega
    · rintro ⟨h0, h1⟩
      funext a
      refine Fin.ext ?_
      match a with
      | ⟨0, _⟩ =>
        show (scatter_S64x64_S100000x1_S100000x64_1_0_0_1.start u idx 0 + (scatter_S64x64_S100000x1_S100000x64_1_0_0_1.window u 0 : Int)).toNat = (i 0).val
        rw [pool_start0, pool_window0, h0]; omega
      | ⟨1, _⟩ =>
        show (scatter_S64x64_S100000x1_S100000x64_1_0_0_1.start u idx 1 + (scatter_S64x64_S100000x1_S100000x64_1_0_0_1.window u 1 : Int)).toNat = (i 1).val
        rw [pool_start1, pool_window1, h1]; omega
  · rename_i hall
    constructor
    · intro he; exact absurd he (by simp)
    · rintro ⟨h0, h1⟩
      exfalso
      apply hall
      intro a
      match a with
      | ⟨0, _⟩ =>
        show 0 ≤ scatter_S64x64_S100000x1_S100000x64_1_0_0_1.start u idx 0 + (scatter_S64x64_S100000x1_S100000x64_1_0_0_1.window u 0 : Int) ∧
          scatter_S64x64_S100000x1_S100000x64_1_0_0_1.start u idx 0 + (scatter_S64x64_S100000x1_S100000x64_1_0_0_1.window u 0 : Int) < (64 : Nat)
        rw [pool_start0, pool_window0, h0]; omega
      | ⟨1, _⟩ =>
        show 0 ≤ scatter_S64x64_S100000x1_S100000x64_1_0_0_1.start u idx 1 + (scatter_S64x64_S100000x1_S100000x64_1_0_0_1.window u 1 : Int) ∧
          scatter_S64x64_S100000x1_S100000x64_1_0_0_1.start u idx 1 + (scatter_S64x64_S100000x1_S100000x64_1_0_0_1.window u 1 : Int) < (64 : Nat)
        rw [pool_start1, pool_window1]; omega

/-- The scatter-add of the node rows by graph number into zeros is `poolG`. -/
theorem scatter_eq_poolG (gid : IVec S100000 32) (h : FVec Ideal S100000x64 .f32) (hc : S100000.ShapeCasts S100000x1) :
    Host.scatterAdd scatter_S64x64_S100000x1_S100000x64_1_0_0_1
      (broadcastInDim S64x64 ![] bcast_S_S64x64 (constant (F := Ideal) S_ .f32 0x00000000#32))
      (broadcastInDim S100000x1 ![0] bcast_S100000_S100000x1_0 gid) h
      = Cert.Spec.poolG (shapeCast S100000x1 gid hc) h := by
  funext i
  unfold Host.scatterAdd
  rw [Ideal.hostScatterAdd_def]
  unfold Ideal.hostScatterAdd Cert.Spec.poolG
  have hz : broadcastInDim S64x64 ![] bcast_S_S64x64 (constant (F := Ideal) S_ .f32 0x00000000#32) i = (0 : EReal) := by
    show Ideal.ofBits .f32 0x00000000#32 = 0
    exact Ideal.ofBits_zero_f32
  rw [hz, zero_add, Finset.sum_filter, sum_idx2]
  refine Finset.sum_congr rfl fun n _ => ?_
  have key : ∀ b : Fin 64,
      (scatter_S64x64_S100000x1_S100000x64_1_0_0_1.resultIdx? (ix2 n b)
          (broadcastInDim S100000x1 ![0] bcast_S100000_S100000x1_0 gid) = some i) ↔
        ((gid (ix1 n)).toInt = ((i 0).val : Int) ∧ b = i 1) := by
    intro b
    rw [pool_resultIdx_eq_some_iff, pool_bcast_col_apply]
    exact Iff.rfl
  rw [pool_cast_col_apply]
  by_cases hP : (gid (ix1 n)).toInt = ((i 0).val : Int)
  · have hw : Spec.hot (gid (ix1 n)) (i 0).val = 1 := by
      unfold Spec.hot
      rw [if_pos ((pool_toInt_eq_iff (gid (ix1 n)) (i 0)).1 hP)]
    rw [hw, one_mul]
    refine (Finset.sum_eq_single (i 1) ?_ ?_).trans ?_
    · intro b _ hb
      exact if_neg (fun he => hb ((key b).1 he).2)
    · intro hn
      exact absurd (Finset.mem_univ _) hn
    · exact if_pos ((key _).2 ⟨hP, rfl⟩)
  · have hw : Spec.hot (gid (ix1 n)) (i 0).val = 0 := by
      unfold Spec.hot
      rw [if_neg (fun he => hP ((pool_toInt_eq_iff (gid (ix1 n)) (i 0)).2 he))]
    rw [hw, zero_mul]
    exact Finset.sum_eq_zero fun b _ => if_neg (fun he => hP ((key b).1 he).1)

end Cert.ReferenceIdeal.Hand

end
-- ==== Proof.RefTerm.lean ====
/-
  The reference's result at the ideal instance, regrouped: the same few functions of arrays as on the kernel's side — the
  inverse square root of the clamped degree (`normR`), one round of message passing (`aggR`), the clamped node counts
  (`cntR`) — around the table lookup, three dense layers and the segment sum; and then, inside the table's range, the
  lookup, the layers and the segment sum read as the one-hot product, the dense layer function and the one-hot contraction.
-/
import proofs.«400514_j35381940584594_2_alg».proof.Proof.Gen.ReferenceIdeal.Run
import proofs.«400514_j35381940584594_2_alg».proof.Proof.BridgeEmb
import proofs.«400514_j35381940584594_2_alg».proof.Proof.BridgeGcn
import proofs.«400514_j35381940584594_2_alg».proof.Proof.BridgePool

set_option maxRecDepth 16384

noncomputable section

open Idealize.ShloMosaic Idealize.ShloMosaic.TcCoe Idealize.SL.Sem

namespace Cert.ReferenceIdeal.Hand

open Cert.ReferenceIdeal Cert.ReferenceIdeal.Gen

/-- `max(1, number of edges with this end at the node) ^ (-1/2)`, node by node. -/
def normR (idx : IVec S1600000 32) : FVec Ideal S100000 .f32 :=
  Host.powf
    (maximumf (broadcastInDim S100000 ![] bcast_S_S100000 (id (constant (F := Ideal) S_ .f32 0x3F800000#32)))
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))
    (broadcastInDim S100000 ![] bcast_S_S100000 (constant (F := Ideal) S_ .f32 0xBF000000#32))

/-- One round of message passing: rows scaled by the senders' normalisation, gathered at the sources, summed at the targets. -/
def aggR (h : FVec Ideal S100000x64 .f32) (nOut : FVec Ideal S100000 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164
      (mulf h (broadcastInDim S100000x64 ![0, 1] bcast_S100000x1_S100000x64_0_1 (broadcastInDim S100000x1 ![0] bcast_S100000_S100000x1_0 nOut)))
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- `max(1, number of nodes of the graph)`, broadcast along the rows of the [64, 64] result. -/
def cntR (gid : IVec S100000 32) : FVec Ideal S64x64 .f32 :=
  broadcastInDim S64x64 ![0, 1] bcast_S64x1_S64x64_0_1 (broadcastInDim S64x1 ![0] bcast_S64_S64x1_0
    (maximumf (broadcastInDim S64 ![] bcast_S_S64 (id (constant (F := Ideal) S_ .f32 0x3F800000#32)))
      (Host.scatterAdd scatter_S64_S100000x1_S100000_n_0_0_1
        (broadcastInDim S64 ![] bcast_S_S64 (constant (F := Ideal) S_ .f32 0x00000000#32))
        (broadcastInDim S100000x1 ![0] bcast_S100000_S100000x1_0 gid)
        (broadcastInDim S100000 ![] bcast_S_S100000 (constant (F := Ideal) S_ .f32 0x3F800000#32)))))

/-- The reference's layer as it writes it: message passing, the receivers' normalisation, the matrix product, the bias, the clamp. -/
def layerRaw (h : FVec Ideal S100000x64 .f32) (nOut nIn : FVec Ideal S100000 .f32) (src dst : IVec S1600000 32)
    (w : FVec Ideal S64x64 .f32) (b : FVec Ideal S64 .f32) : FVec Ideal S100000x64 .f32 :=
  maximumf (addf (Host.dotGeneral dot_S100000x64_S64x64_S100000x64_1_0_0_1_n_n none
      (mulf (aggR h nOut src dst) (broadcastInDim S100000x64 ![0, 1] bcast_S100000x1_S100000x64_0_1 (broadcastInDim S100000x1 ![0] bcast_S100000_S100000x1_0 nIn))) w)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The table lookup as the reference writes it: a negative index wrapped, then the rows gathered. -/
def lookupRaw (emb : FVec Ideal S1000x64 .f32) (nf : IVec S100000 32) : FVec Ideal S100000x64 .f32 :=
  Host.gather gather_S1000x64_S100000x1_S100000x64_1_0_n_n_0_1_164 emb
    (broadcastInDim S100000x1 ![0] bcast_S100000_S100000x1_0
      (select (cmpi .slt nf (broadcastInDim S100000 ![] bcast_S_S100000 (constantI S_ 32 0#32)))
        (addi nf (broadcastInDim S100000 ![] bcast_S_S100000 (constantI S_ 32 1000#32))) nf))

variable (m : (ℓ : Loc nD τ sig) → Buf (Elt Ideal) ℓ) (c : Dev nD)

/-- An argument array's launch contents. -/
abbrev argv (r : Ref sig .tc) : Buf (Elt Ideal) ((c.tc : Thread nD τ).loc r) := m ((c.tc : Thread nD τ).loc r)

set_option maxHeartbeats 4000000 in
/-- The reference run's result term, regrouped. -/
theorem res_regrouped : Cert.ReferenceIdeal.Value.res_main_v93 (F := Ideal) m c
    = Host.divf (Host.scatterAdd scatter_S64x64_S100000x1_S100000x64_1_0_0_1
        (broadcastInDim S64x64 ![] bcast_S_S64x64 (constant (F := Ideal) S_ .f32 0x00000000#32))
        (broadcastInDim S100000x1 ![0] bcast_S100000_S100000x1_0 (argv m c main_arg10))
        (layerRaw (layerRaw (layerRaw (lookupRaw (argv m c main_arg0) (argv m c main_arg7))
            (normR (argv m c main_arg8)) (normR (argv m c main_arg9)) (argv m c main_arg8) (argv m c main_arg9) (argv m c main_arg1) (argv m c main_arg2))
          (normR (argv m c main_arg8)) (normR (argv m c main_arg9)) (argv m c main_arg8) (argv m c main_arg9) (argv m c main_arg3) (argv m c main_arg4))
        (normR (argv m c main_arg8)) (normR (argv m c main_arg9)) (argv m c main_arg8) (argv m c main_arg9) (argv m c main_arg5) (argv m c main_arg6)))
      (cntR (argv m c main_arg10)) := by
  unfold Cert.ReferenceIdeal.Value.res_main_v93 layerRaw lookupRaw aggR normR cntR argv
  rfl

/-- One layer on the reference's side through the dense layer function. -/
def layerR (h : FVec Ideal S100000x64 .f32) (w : FVec Ideal S64x64 .f32) (b : FVec Ideal S64 .f32)
    (hc : S100000.ShapeCasts S100000x1) (hb : S64.ShapeCasts S1x64) : FVec Ideal S100000x64 .f32 :=
  Cert.Spec.gcnG (aggR h (normR (argv m c main_arg8)) (argv m c main_arg8) (argv m c main_arg9))
    (shapeCast S100000x1 (normR (argv m c main_arg9)) hc) w (shapeCast S1x64 b hb)

/-- Inside the table's range the reference's result is the per-graph one-hot contraction of three dense layers over the
    one-hot embedding, divided by the clamped counts. -/
theorem res_value (hc : S100000.ShapeCasts S100000x1) (hb : S64.ShapeCasts S1x64)
    (hr : ∀ n : S100000.Idx, 0 ≤ ((argv m c main_arg7 : IVec S100000 32) n).toInt ∧ ((argv m c main_arg7 : IVec S100000 32) n).toInt < 1000) :
    Cert.ReferenceIdeal.Value.res_main_v93 (F := Ideal) m c
      = Host.divf (Cert.Spec.poolG (shapeCast S100000x1 (argv m c main_arg10) hc)
          (layerR m c (layerR m c (layerR m c (Cert.Spec.embG (shapeCast S100000x1 (argv m c main_arg7) hc) (argv m c main_arg0))
            (argv m c main_arg1) (argv m c main_arg2) hc hb) (argv m c main_arg3) (argv m c main_arg4) hc hb) (argv m c main_arg5) (argv m c main_arg6) hc hb))
        (cntR (argv m c main_arg10)) := by
  rw [res_regrouped, scatter_eq_poolG _ _ hc]
  unfold layerRaw lookupRaw layerR
  rw [gather_eq_embG _ _ hc hr, layer_eq_gcnG _ _ _ _ hc hb, layer_eq_gcnG _ _ _ _ hc hb, layer_eq_gcnG _ _ _ _ hc hb]

end Cert.ReferenceIdeal.Hand

end
-- ==== Proof.PreRange.lean ====
/-
  The precondition's last conjunct, read back: every node type is a row number of the embedding table.
-/
import proofs.«400514_j35381940584594_2_alg».proof.Defs
import proofs.«400514_j35381940584594_2_alg».proof.Proof.Gen.KernelIdeal
import proofs.«400514_j35381940584594_2_alg».proof.Proof.Gen.Pre_finite_inputs
import Idealize.ShloMosaic.Lib.ReduceAll
import Idealize.ShloMosaic.Lib.StableHlo.Predicate

noncomputable section

open Idealize.ShloMosaic Idealize.SL.Sem

namespace Cert.KernelIdeal.Hand

open Cert.KernelIdeal Cert.KernelIdeal.Gen

section Decode

variable [Cert.Pre_finite_inputs.Facts]

/-- The printed predicate is a chain of conjunctions; its outermost one joins everything that concerns the float
    tables (here an unnamed scalar bit) with the conjunct on the node types. -/
theorem preRange_fn_eq_last (a0 : FVec Ideal Cert.Pre_finite_inputs.S1000x64 .f32) (a1 : FVec Ideal Cert.Pre_finite_inputs.S64x64 .f32)
    (a2 : FVec Ideal Cert.Pre_finite_inputs.S64 .f32) (a3 : FVec Ideal Cert.Pre_finite_inputs.S64x64 .f32)
    (a4 : FVec Ideal Cert.Pre_finite_inputs.S64 .f32) (a5 : FVec Ideal Cert.Pre_finite_inputs.S64x64 .f32)
    (a6 : FVec Ideal Cert.Pre_finite_inputs.S64 .f32) (a7 : IVec Cert.Pre_finite_inputs.S100000 32)
    (a8 a9 : IVec Cert.Pre_finite_inputs.S1600000 32) (a10 : IVec Cert.Pre_finite_inputs.S100000 32) :
    ∃ rest : IVec Cert.Pre_finite_inputs.S_ 1,
      Cert.Pre_finite_inputs.fn (F := Ideal) a0 a1 a2 a3 a4 a5 a6 a7 a8 a9 a10
        = Cert.Pre_finite_inputs.fn_part2 (F := Ideal) a7 rest :=
  ⟨_, rfl⟩

/-- The last conjunct: "all of (0 ≤ t and t < 1000) over the node types t". If the whole conjunction is the bit 1 then
    so is this all-reduction, hence so is its operand at every node, hence both signed comparisons hold there. -/
theorem preRange_of_last (a7 : IVec Cert.Pre_finite_inputs.S100000 32) (rest : IVec Cert.Pre_finite_inputs.S_ 1)
    (h : Cert.Pre_finite_inputs.fn_part2 (F := Ideal) a7 rest = fun _ => 1#1) (n : Cert.Pre_finite_inputs.S100000.Idx) :
    0 ≤ (a7 n).toInt ∧ (a7 n).toInt < 1000 := by
  have h0 := congrFun h (fun a => a.elim0 : Cert.Pre_finite_inputs.S_.Idx)
  dsimp only [Cert.Pre_finite_inputs.fn_part2] at h0
  have hall := (IntOp.andi_eq_one.1 h0).2
  -- a shape with no axes has exactly one index, so the reduction over every axis has a single result
  haveI : Subsingleton Cert.Pre_finite_inputs.S_.Idx := ⟨fun a b => funext fun d => d.elim0⟩
  have hn := Host.reduce_andi_all _ _ _ _ _ hall n
  obtain ⟨hge, hlt⟩ := IntOp.andi_eq_one.1 hn
  -- a broadcast scalar constant reads that constant at every node
  change IntOp.cmpi .sge (a7 n) 0#32 = 1#1 at hge
  change IntOp.cmpi .slt (a7 n) 1000#32 = 1#1 at hlt
  simp only [IntOp.cmpi, StableHlo.Predicate.ofBool_eq_one_iff, BitVec.sle, BitVec.slt, decide_eq_true_eq] at hge hlt
  have z : (0#32 : BitVec 32).toInt = 0 := by decide
  have k : (1000#32 : BitVec 32).toInt = 1000 := by decide
  rw [z] at hge
  rw [k] at hlt
  exact ⟨hge, hlt⟩

end Decode

/-- Under the precondition every node type lies in `[0, 1000)`, on every device. -/
theorem nodeFeat_range (m : (ℓ : Loc nD τ sig) → Buf (Elt Ideal) ℓ) (h : Cert.Pre_KernelIdeal m) (c : Dev nD) (n : S100000.Idx) :
    0 ≤ ((m ((c.tc : Thread nD τ).loc main_arg7) : IVec S100000 32) n).toInt
      ∧ ((m ((c.tc : Thread nD τ).loc main_arg7) : IVec S100000 32) n).toInt < 1000 := by
  obtain ⟨rest, e⟩ := preRange_fn_eq_last (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
  exact preRange_of_last _ rest (e.symm.trans (h c)) n

end Cert.KernelIdeal.Hand

end
-- ==== Proof.lean ====
/-
  A three-layer graph convolution with mean pooling, its dense parts in five pipelined kernels, against the plain reference.
  At the ideal instance both programs compute, for every graph `g` and feature `j`,
      (∑ over the nodes n of graph g of h₃ n j) / max(1, number of nodes of g),
  where h₀ is the embedding of the node types, and each layer sends h to
      max(0, ((A h') n · W + b)),  h' = h scaled by the senders' degree^(-1/2), A h' summed over incoming edges and scaled by
  the receivers' degree^(-1/2).
  The kernel writes the embedding as a one-hot product with the table, each layer's dense part as one kernel over row
  blocks, and the pooling as a one-hot contraction accumulated over row blocks; the reference gathers, multiplies and
  scatter-adds. The one-hot product is the table lookup exactly when every node type is a row number of the table: that is
  the precondition's last conjunct. The message passing (gather at the sources, scatter-add at the targets) is the same
  host computation in both programs and is carried as one function. No law of the extended reals beyond
  `0 * x = 0`, `1 * x = x` and the commutativity and associativity of sums is used, so the finiteness of the float
  inputs is never opened.
  The frames of the two programs with kernels are the generated ones; the reference's frame is its generated run with
  the result dropped; nothing was rewritten by the idealization, so `preserves` is trivial.
-/
import proofs.«400514_j35381940584594_2_alg».proof.Defs
import proofs.«400514_j35381940584594_2_alg».proof.Proof.Gen.Kernel
import proofs.«400514_j35381940584594_2_alg».proof.Proof.Gen.Kernel.Skeleton
import proofs.«400514_j35381940584594_2_alg».proof.Proof.Gen.Kernel.Launch
import proofs.«400514_j35381940584594_2_alg».proof.Proof.Gen.Kernel.Points
import proofs.«400514_j35381940584594_2_alg».proof.Proof.Gen.Kernel.Frame
import proofs.«400514_j35381940584594_2_alg».proof.Proof.Gen.KernelIdeal
import proofs.«400514_j35381940584594_2_alg».proof.Proof.Gen.KernelIdeal.Skeleton
import proofs.«400514_j35381940584594_2_alg».proof.Proof.Gen.KernelIdeal.Launch
import proofs.«400514_j35381940584594_2_alg».proof.Proof.Gen.KernelIdeal.Points
import proofs.«400514_j35381940584594_2_alg».proof.Proof.Gen.KernelIdeal.Frame
import proofs.«400514_j35381940584594_2_alg».proof.Proof.Gen.ReferenceIdeal
import proofs.«400514_j35381940584594_2_alg».proof.Proof.Gen.Pre_finite_inputs
import proofs.«400514_j35381940584594_2_alg».proof.Proof.Gen.ReferenceIdeal.Run
import proofs.«400514_j35381940584594_2_alg».proof.Proof.RunK
import proofs.«400514_j35381940584594_2_alg».proof.Proof.KValue
import proofs.«400514_j35381940584594_2_alg».proof.Proof.RefTerm
import proofs.«400514_j35381940584594_2_alg».proof.Proof.PreRange
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The message passing, the normalisations and the counts are the same host computations in both programs. -/
theorem normR_eq : @Cert.ReferenceIdeal.Hand.normR = @Cert.KernelIdeal.Hand.normK := rfl
theorem aggR_eq : @Cert.ReferenceIdeal.Hand.aggR = @Cert.KernelIdeal.Hand.aggK := rfl
theorem cntR_eq : @Cert.ReferenceIdeal.Hand.cntR = @Cert.KernelIdeal.Hand.cntK := rfl

/-- From memories that agree on the arguments, inside the table's range, the reference's result term is the kernel's. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v93 (F := Ideal) m' c = Cert.KernelIdeal.Hand.resultK m c := by
  have hr : ∀ n : Cert.ReferenceIdeal.S100000.Idx,
      0 ≤ ((Cert.ReferenceIdeal.Hand.argv m' c Cert.ReferenceIdeal.main_arg7 : IVec Cert.ReferenceIdeal.S100000 32) n).toInt
        ∧ ((Cert.ReferenceIdeal.Hand.argv m' c Cert.ReferenceIdeal.main_arg7 : IVec Cert.ReferenceIdeal.S100000 32) n).toInt < 1000 := by
    intro n
    unfold Cert.ReferenceIdeal.Hand.argv
    rw [h7]
    exact Cert.KernelIdeal.Hand.nodeFeat_range m hpre c n
  rw [Cert.ReferenceIdeal.Hand.res_value m' c Cert.KernelIdeal.Facts₀.shapeCasts_S100000_S100000x1 Cert.KernelIdeal.Facts₀.shapeCasts_S64_S1x64 hr]
  unfold Cert.ReferenceIdeal.Hand.layerR Cert.ReferenceIdeal.Hand.argv
  rw [h0, h1, h2, h3, h4, h5, h6, h7, h8, h9, h10, normR_eq, aggR_eq, cntR_eq]
  rfl

/-- Both programs run, the kernel's result at `resultK` (the generated launch with the result named, read back boundary by
    boundary) and the reference's at its run's term, which is `resultK` too (`result_eq`). -/
theorem algebraic : Cert.algebraic_KernelIdeal_ReferenceIdeal := by
  intro m ρ m' ρ' hpre hagree
  refine ⟨fun c => Cert.KernelIdeal.Hand.resultK m c, ?_, ?_⟩
  · exact (θ_run Cert.KernelIdeal.defs _ _).mono
      (fun r h c => ⟨(h c).1.trans (Cert.KernelIdeal.Hand.W17_v72 m ρ c), (h c).2⟩) (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    exact result_eq m m' hpre c h0 h1 h2 h3 h4 h5 h6 h7 h8 h9 h10

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
